-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x256 .f32) (main_arg6 : FVec F S64 .f32) (main_arg7 : FVec F S64x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S64x256 .f32 := Host.absf main_arg5
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg7
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S256x128 .f32) (main_arg3 : FVec F S256 .f32) (main_arg4 : FVec F S256x128 .f32) (main_arg5 : FVec F S64x256 .f32) (main_arg6 : FVec F S64 .f32) (main_arg7 : FVec F S64x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S128x256 : Shape := ⟨2, ![128, 256]⟩
abbrev S1x256 : Shape := ⟨2, ![1, 256]⟩
abbrev S100000x256 : Shape := ⟨2, ![100000, 256]⟩
abbrev S4000x128 : Shape := ⟨2, ![4000, 128]⟩
abbrev S4000x256 : Shape := ⟨2, ![4000, 256]⟩
abbrev S640000x256 : Shape := ⟨2, ![640000, 256]⟩
abbrev S256x64 : Shape := ⟨2, ![256, 64]⟩
abbrev S1x64 : Shape := ⟨2, ![1, 64]⟩
abbrev S100000x64 : Shape := ⟨2, ![100000, 64]⟩
abbrev S4000x64 : Shape := ⟨2, ![4000, 64]⟩
abbrev S4000 : Shape := ⟨1, ![4000]⟩
abbrev S4000x1 : Shape := ⟨2, ![4000, 1]⟩

abbrev nBuf : Space → Nat
  | .hbm => 80
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S64x256, .f32⟩
  | .hbm, ⟨6, _⟩ => ⟨S64, .f32⟩
  | .hbm, ⟨7, _⟩ => ⟨S64x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S256x128, .bf16⟩
  | .hbm, ⟨39, _⟩ => ⟨S128x256, .bf16⟩
  | .hbm, ⟨40, _⟩ => ⟨S256x128, .bf16⟩
  | .hbm, ⟨41, _⟩ => ⟨S128x256, .bf16⟩
  | .hbm, ⟨42, _⟩ => ⟨S1x256, .f32⟩
  | .hbm, ⟨43, _⟩ => ⟨S100000x128, .bf16⟩
  | .hbm, ⟨44, _⟩ => ⟨S100000x128, .bf16⟩
  | .hbm, ⟨45, _⟩ => ⟨S100000x256, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x256, .f32⟩
  | .hbm, ⟨55, _⟩ => ⟨S_, .f32⟩
  | .hbm, ⟨56, _⟩ => ⟨S100000x256, .f32⟩
  | .hbm, ⟨57, _⟩ => ⟨S640000x1, .i32⟩
  | .hbm, ⟨58, _⟩ => ⟨S100000x256, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S100000, .f32⟩
  | .hbm, ⟨63, _⟩ => ⟨S640000x1, .i32⟩
  | .hbm, ⟨64, _⟩ => ⟨S100000, .f32⟩
  | .hbm, ⟨65, _⟩ => ⟨S_, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x256, .f32⟩
  | .hbm, ⟨71, _⟩ => ⟨S100000x256, .f32⟩
  | .hbm, ⟨72, _⟩ => ⟨S64x256, .bf16⟩
  | .hbm, ⟨73, _⟩ => ⟨S256x64, .bf16⟩
  | .hbm, ⟨74, _⟩ => ⟨S64x256, .bf16⟩
  | .hbm, ⟨75, _⟩ => ⟨S256x64, .bf16⟩
  | .hbm, ⟨76, _⟩ => ⟨S1x64, .f32⟩
  | .hbm, ⟨77, _⟩ => ⟨S100000x256, .bf16⟩
  | .hbm, ⟨78, _⟩ => ⟨S100000x256, .bf16⟩
  | .hbm, ⟨79, _⟩ => ⟨S100000x64, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S4000x256, .f32⟩
  | .local _ .vmem, ⟨8, _⟩ => ⟨S4000x256, .f32⟩
  | .local _ .vmem, ⟨9, _⟩ => ⟨S4000x256, .bf16⟩
  | .local _ .vmem, ⟨10, _⟩ => ⟨S4000x256, .bf16⟩
  | .local _ .vmem, ⟨11, _⟩ => ⟨S4000x256, .bf16⟩
  | .local _ .vmem, ⟨12, _⟩ => ⟨S4000x256, .bf16⟩
  | .local _ .vmem, ⟨13, _⟩ => ⟨S256x64, .bf16⟩
  | .local _ .vmem, ⟨14, _⟩ => ⟨S256x64, .bf16⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_call1_v0 : Ref sig .tc := ⟨.hbm, 66, rfl⟩
abbrev main_call1_v1 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  transposes_S256x128_S128x256_1_0 : S256x128.Transposes [1, 0] S128x256
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S64x256_S256x64_1_0 : S64x256.Transposes [1, 0] S256x64
  shapeCasts_S64_S1x64 : S64.ShapeCasts S1x64
  shapeCasts_S4000x256_S4000x256 : S4000x256.ShapeCasts S4000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S4000x128_S128x256_S4000x256_1_0_0_1_n_n_wf : DotDims.WF S4000x128 S128x256 S4000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S4000x256_S256x64_S4000x64_1_0_0_1_n_n_wf : DotDims.WF S4000x256 S256x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .bf16 = 32 ∨ (Rect.block (s := S100000x128) S4000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S100000x256.size a
  hwx0_5 : ∀ i : grid0.Coords, EltTy.bits .f32 = 32 ∨ (Rect.block (s := S100000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .bf16 = 32 ∨ (Rect.block (s := S100000x256) S4000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .bf16 = 32 ∨ (Rect.block (s := S100000x256) S4000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .bf16 = 32 ∨ (Rect.block (s := S256x64) S256x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf

abbrev win0_0 : Pipeline.Window sig grid0 :=
  Pipeline.Window.ofSpec (Memref.whole main_v27) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v53) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S128x256 : Shape := ⟨2, ![128, 256]⟩
abbrev S100000x256 : Shape := ⟨2, ![100000, 256]⟩
abbrev S1x256 : Shape := ⟨2, ![1, 256]⟩
abbrev S640000x256 : Shape := ⟨2, ![640000, 256]⟩
abbrev S256x64 : Shape := ⟨2, ![256, 64]⟩
abbrev S100000x64 : Shape := ⟨2, ![100000, 64]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S64x256, .f32⟩
  | .hbm, ⟨6, _⟩ => ⟨S64, .f32⟩
  | .hbm, ⟨7, _⟩ => ⟨S64x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x256, .f32⟩
  | .hbm, ⟨39, _⟩ => ⟨S100000x256, .f32⟩
  | .hbm, ⟨40, _⟩ => ⟨S1x256, .f32⟩
  | .hbm, ⟨41, _⟩ => ⟨S100000x256, .f32⟩
  | .hbm, ⟨42, _⟩ => ⟨S100000x256, .f32⟩
  | .hbm, ⟨43, _⟩ => ⟨S128x256, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x256, .f32⟩
  | .hbm, ⟨58, _⟩ => ⟨S_, .f32⟩
  | .hbm, ⟨59, _⟩ => ⟨S100000x256, .f32⟩
  | .hbm, ⟨60, _⟩ => ⟨S640000x1, .i32⟩
  | .hbm, ⟨61, _⟩ => ⟨S100000x256, .f32⟩
  | .hbm, ⟨62, _⟩ => ⟨S_, .f32⟩
  | .hbm, ⟨63, _⟩ => ⟨S640000, .f32⟩
  | .hbm, ⟨64, _⟩ => ⟨S_, .f32⟩
  | .hbm, ⟨65, _⟩ => ⟨S100000, .f32⟩
  | .hbm, ⟨66, _⟩ => ⟨S640000x1, .i32⟩
  | .hbm, ⟨67, _⟩ => ⟨S100000, .f32⟩
  | .hbm, ⟨68, _⟩ => ⟨S_, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x256, .f32⟩
  | .hbm, ⟨74, _⟩ => ⟨S100000x256, .f32⟩
  | .hbm, ⟨75, _⟩ => ⟨S256x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S256x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S100000x1, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S100000x64, .f32⟩
  | .hbm, ⟨97, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call3_cst : Ref sig .tc := ⟨.hbm, 83, rfl⟩
abbrev main_call3_v0 : Ref sig .tc := ⟨.hbm, 84, rfl⟩
abbrev main_call3_cst_0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_cst_1 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_v57 : Ref sig .tc := ⟨.hbm, 97, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x256_S100000x256_1_0_0_1_n_n_wf : DotDims.WF S100000x128 S128x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x64_S100000x64_1_0_0_1_n_n_wf : DotDims.WF S100000x256 S256x64 S100000x64 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.KHost.lean ====
/-
  The kernel program's host stretches, read back. Before each pallas_call @main computes, on the host, the mean
  aggregate of its layer (gather the source rows, add them into the destination rows, divide by the clipped degree),
  rounds the aggregate, the features and the weights to bf16, transposes the weights and lays the bias as a row. These
  are the same operations the reference applies, so the buffers a region is entered with are the reference's own stage
  functions of the argument arrays, under the roundings: the first aggregate outright, the second once the first
  region's output array is known to be the reference's hidden layer.
-/
import proofs.«182133_j21311627723552_1_alg».proof.Proof.Gen.KernelIdeal.Frame
import proofs.«182133_j21311627723552_1_alg».proof.Proof.RefRead
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## Region 0's five arrays -/

/-- The aggregate window: the reference's first mean aggregate, rounded. -/
theorem in0_mean : W3 m ρ c (Proc.devRef .tc main_v27)
    = truncf .bf16 (Cert.ReferenceIdeal.ReadP.val_main_v21 (F := F) (m ((c : Thread nD τ).loc main_arg0)) (m ((c : Thread nD τ).loc main_arg1))) bitsLt_bf16_f32 := by
  show StableHlo.after hostOps0_2 (StableHlo.after hostOps0_1 (StableHlo.after hostOps0 (W0 m ρ c))) _ = _
  after_results_simp
  try simp only [TRef.ofBuf, TRef.toBuf, cast_eq]
  all_goals rfl
/-- The feature window: the features, rounded. -/
theorem in0_feat : W3 m ρ c (Proc.devRef .tc main_v28) = truncf .bf16 (m ((c : Thread nD τ).loc main_arg0)) bitsLt_bf16_f32 := by
  show StableHlo.after hostOps0_2 (StableHlo.after hostOps0_1 (StableHlo.after hostOps0 (W0 m ρ c))) _ = _
  after_results_simp
  try simp only [TRef.ofBuf, TRef.toBuf, cast_eq]
  all_goals rfl
/-- The aggregate's weights: rounded, then transposed. -/
theorem in0_wagg : W3 m ρ c (Proc.devRef .tc main_v23)
    = transpose S128x256 [1, 0] (truncf .bf16 (m ((c : Thread nD τ).loc main_arg2)) bitsLt_bf16_f32) transposes_S256x128_S128x256_1_0 := by
  show StableHlo.after hostOps0_2 (StableHlo.after hostOps0_1 (StableHlo.after hostOps0 (W0 m ρ c))) _ = _
  after_results_simp
  try simp only [TRef.ofBuf, TRef.toBuf, cast_eq]
  all_goals rfl
/-- The features' weights: rounded, then transposed. -/
theorem in0_wroot : W3 m ρ c (Proc.devRef .tc main_v25)
    = transpose S128x256 [1, 0] (truncf .bf16 (m ((c : Thread nD τ).loc main_arg4)) bitsLt_bf16_f32) transposes_S256x128_S128x256_1_0 := by
  show StableHlo.after hostOps0_2 (StableHlo.after hostOps0_1 (StableHlo.after hostOps0 (W0 m ρ c))) _ = _
  after_results_simp
  try simp only [TRef.ofBuf, TRef.toBuf, cast_eq]
  all_goals rfl
/-- The bias, laid as one row. -/
theorem in0_bias : W3 m ρ c (Proc.devRef .tc main_v26) = shapeCast S1x256 (m ((c : Thread nD τ).loc main_arg3)) shapeCasts_S256_S1x256 := by
  show StableHlo.after hostOps0_2 (StableHlo.after hostOps0_1 (StableHlo.after hostOps0 (W0 m ρ c))) _ = _
  after_results_simp
  try simp only [TRef.ofBuf, TRef.toBuf, cast_eq]
  all_goals rfl

/-! ## What region 0 leaves untouched -/

/-- The edges' source nodes, as region 1's host stretch finds them. -/
theorem W4_src : W4 m ρ c (Proc.devRef .tc main_v1) = Cert.ReferenceIdeal.ReadP.val_main_v1 (F := F) (m ((c : Thread nD τ).loc main_arg1)) := by
  refine (W4_of_ne m ρ c main_v1 (by decide)).trans ?_
  show StableHlo.after hostOps0_2 (StableHlo.after hostOps0_1 (StableHlo.after hostOps0 (W0 m ρ c))) _ = _
  after_results_simp
  try simp only [TRef.ofBuf, TRef.toBuf, cast_eq]
  all_goals rfl
/-- The edges' destination nodes. -/
theorem W4_dst : W4 m ρ c (Proc.devRef .tc main_v3) = Cert.ReferenceIdeal.ReadP.val_main_v3 (F := F) (m ((c : Thread nD τ).loc main_arg1)) := by
  refine (W4_of_ne m ρ c main_v3 (by decide)).trans ?_
  show StableHlo.after hostOps0_2 (StableHlo.after hostOps0_1 (StableHlo.after hostOps0 (W0 m ρ c))) _ = _
  after_results_simp
  try simp only [TRef.ofBuf, TRef.toBuf, cast_eq]
  all_goals rfl
theorem W4_arg5 : W4 m ρ c (Proc.devRef .tc main_arg5) = (m ((c : Thread nD τ).loc main_arg5)) := by
  refine (W4_of_ne m ρ c main_arg5 (by decide)).trans ?_
  show StableHlo.after hostOps0_2 (StableHlo.after hostOps0_1 (StableHlo.after hostOps0 (W0 m ρ c))) _ = _
  after_results_simp
  try simp only [TRef.ofBuf, TRef.toBuf, cast_eq]
  all_goals rfl
theorem W4_arg6 : W4 m ρ c (Proc.devRef .tc main_arg6) = (m ((c : Thread nD τ).loc main_arg6)) := by
  refine (W4_of_ne m ρ c main_arg6 (by decide)).trans ?_
  show StableHlo.after hostOps0_2 (StableHlo.after hostOps0_1 (StableHlo.after hostOps0 (W0 m ρ c))) _ = _
  after_results_simp
  try simp only [TRef.ofBuf, TRef.toBuf, cast_eq]
  all_goals rfl
theorem W4_arg7 : W4 m ρ c (Proc.devRef .tc main_arg7) = (m ((c : Thread nD τ).loc main_arg7)) := by
  refine (W4_of_ne m ρ c main_arg7 (by decide)).trans ?_
  show StableHlo.after hostOps0_2 (StableHlo.after hostOps0_1 (StableHlo.after hostOps0 (W0 m ρ c))) _ = _
  after_results_simp
  try simp only [TRef.ofBuf, TRef.toBuf, cast_eq]
  all_goals rfl

/-! ## Region 1's five arrays, once region 0's output is the reference's hidden layer -/

section Layer2
variable (hH : W4 m ρ c (Proc.devRef .tc main_v29)
    = Cert.ReferenceIdeal.ReadP.val_main_v30 (F := F) (m ((c : Thread nD τ).loc main_arg0)) (m ((c : Thread nD τ).loc main_arg1)) (m ((c : Thread nD τ).loc main_arg2)) (m ((c : Thread nD τ).loc main_arg3)) (m ((c : Thread nD τ).loc main_arg4)))
include hH

/-- The aggregate window: the reference's second mean aggregate, rounded. -/
theorem in1_mean : W7 m ρ c (Proc.devRef .tc main_v53)
    = truncf .bf16 (Cert.ReferenceIdeal.ReadP.val_main_v48 (F := F) (m ((c : Thread nD τ).loc main_arg0)) (m ((c : Thread nD τ).loc main_arg1)) (m ((c : Thread nD τ).loc main_arg2)) (m ((c : Thread nD τ).loc main_arg3)) (m ((c : Thread nD τ).loc main_arg4))) bitsLt_bf16_f32 := by
  show StableHlo.after hostOps1_2 (StableHlo.after hostOps1_1 (StableHlo.after hostOps1 (W4 m ρ c))) _ = _
  after_results_simp
  try simp only [TRef.ofBuf, TRef.toBuf, cast_eq]
  rw [hH, W4_src, W4_dst]
  simp only [Cert.ReferenceIdeal.ReadP.val_main_v48, Cert.ReferenceIdeal.ReadP.val_main_v47, Cert.ReferenceIdeal.ReadP.val_main_v46, Cert.ReferenceIdeal.ReadP.val_main_v45, Cert.ReferenceIdeal.ReadP.val_main_call2_v1, Cert.ReferenceIdeal.ReadP.val_main_call2_v0, Cert.ReferenceIdeal.ReadP.val_main_cst_9, Cert.ReferenceIdeal.ReadP.val_main_v44, Cert.ReferenceIdeal.ReadP.val_main_v43, Cert.ReferenceIdeal.ReadP.val_main_v42, Cert.ReferenceIdeal.ReadP.val_main_cst_8, Cert.ReferenceIdeal.ReadP.val_main_v41, Cert.ReferenceIdeal.ReadP.val_main_cst_7, Cert.ReferenceIdeal.ReadP.val_main_v40, Cert.ReferenceIdeal.ReadP.val_main_v39, Cert.ReferenceIdeal.ReadP.val_main_v38, Cert.ReferenceIdeal.ReadP.val_main_cst_6, Cert.ReferenceIdeal.ReadP.val_main_v37, Cert.ReferenceIdeal.ReadP.val_main_v36, Cert.ReferenceIdeal.ReadP.val_main_v35, Cert.ReferenceIdeal.ReadP.val_main_v34, Cert.ReferenceIdeal.ReadP.val_main_v33, Cert.ReferenceIdeal.ReadP.val_main_c_5, Cert.ReferenceIdeal.ReadP.val_main_v32, Cert.ReferenceIdeal.ReadP.val_main_v31, Cert.ReferenceIdeal.ReadP.val_main_c_4]
  rfl
/-- The feature window: the hidden layer, rounded. -/
theorem in1_feat : W7 m ρ c (Proc.devRef .tc main_v54)
    = truncf .bf16 (Cert.ReferenceIdeal.ReadP.val_main_v30 (F := F) (m ((c : Thread nD τ).loc main_arg0)) (m ((c : Thread nD τ).loc main_arg1)) (m ((c : Thread nD τ).loc main_arg2)) (m ((c : Thread nD τ).loc main_arg3)) (m ((c : Thread nD τ).loc main_arg4))) bitsLt_bf16_f32 := by
  show StableHlo.after hostOps1_2 (StableHlo.after hostOps1_1 (StableHlo.after hostOps1 (W4 m ρ c))) _ = _
  after_results_simp
  try simp only [TRef.ofBuf, TRef.toBuf, cast_eq]
  rw [hH]
end Layer2

/-- The aggregate's weights of the second layer: rounded, then transposed. -/
theorem in1_wagg : W7 m ρ c (Proc.devRef .tc main_v49)
    = transpose S256x64 [1, 0] (truncf .bf16 (m ((c : Thread nD τ).loc main_arg5)) bitsLt_bf16_f32) transposes_S64x256_S256x64_1_0 := by
  show StableHlo.after hostOps1_2 (StableHlo.after hostOps1_1 (StableHlo.after hostOps1 (W4 m ρ c))) _ = _
  after_results_simp
  try simp only [TRef.ofBuf, TRef.toBuf, cast_eq]
  rw [W4_arg5]
/-- The hidden layer's weights of the second layer: rounded, then transposed. -/
theorem in1_wroot : W7 m ρ c (Proc.devRef .tc main_v51)
    = transpose S256x64 [1, 0] (truncf .bf16 (m ((c : Thread nD τ).loc main_arg7)) bitsLt_bf16_f32) transposes_S64x256_S256x64_1_0 := by
  show StableHlo.after hostOps1_2 (StableHlo.after hostOps1_1 (StableHlo.after hostOps1 (W4 m ρ c))) _ = _
  after_results_simp
  try simp only [TRef.ofBuf, TRef.toBuf, cast_eq]
  rw [W4_arg7]
/-- The second layer's bias, laid as one row. -/
theorem in1_bias : W7 m ρ c (Proc.devRef .tc main_v52) = shapeCast S1x64 (m ((c : Thread nD τ).loc main_arg6)) shapeCasts_S64_S1x64 := by
  show StableHlo.after hostOps1_2 (StableHlo.after hostOps1_1 (StableHlo.after hostOps1 (W4 m ρ c))) _ = _
  after_results_simp
  try simp only [TRef.ofBuf, TRef.toBuf, cast_eq]
  rw [W4_arg6]
  rfl

end Cert.KernelIdeal.HostSide

end
-- ==== Proof.Spec.lean ====
/-
  The mathematics of one SAGE layer, stated once for any number of rows.

  A layer takes, for each node (row) r, the aggregated neighbour features A r · and the node's own features B r ·,
  two weight matrices already laid out with the contracted axis first (WA k j, WR k j) and a bias row b 0 j, and forms

      pre r j = (Σ_k A r k · WA k j  +  Σ_k B r k · WR k j)  +  b 0 j .

  The first layer keeps max (pre r j) 0; the second turns each row into its log-softmax,
  (pre r j − M r) − log Σ_j' exp (pre r j' − M r), with M r the row's maximum taken from −∞.
  Everything is over the extended reals and row by row, so the same definitions describe a block of rows
  and the whole array: row r of the block at offset o is row o + r of the array.
-/
import Idealize.ShloMosaic.PureOps.Ideal
import Idealize.ShloMosaic.Lib.ValueIdx

noncomputable section

namespace Cert.Sage

open Idealize.ShloMosaic Idealize.ShloMosaic.ValueIdx

/-- A matrix of extended reals with R rows and C columns, indexed as the printed programs index their arrays. -/
abbrev Mat (R C : Nat) : Type := (⟨2, ![R, C]⟩ : Shape).Idx → EReal

/-- The row of an index of an R × C matrix. -/
abbrev rowOf {R C : Nat} (i : (⟨2, ![R, C]⟩ : Shape).Idx) : Fin R := ⟨(i 0).val, (i 0).isLt⟩
/-- The column of an index of an R × C matrix. -/
abbrev colOf {R C : Nat} (i : (⟨2, ![R, C]⟩ : Shape).Idx) : Fin C := ⟨(i 1).val, (i 1).isLt⟩

/-- The layer before its activation: both products and the bias, at row r and output column j. -/
def pre {R K J : Nat} (A B : Mat R K) (WA WR : Mat K J) (b : Mat 1 J) (r : Fin R) (j : Fin J) : EReal :=
  ((∑ k : Fin K, A (ix2 r k) * WA (ix2 k j)) + ∑ k : Fin K, B (ix2 r k) * WR (ix2 k j)) + b (ix2 (0 : Fin 1) j)

/-- The first layer: the rectified pre-activation (the zero is the float word 0, read as an extended real). -/
def hidden {R K J : Nat} (A B : Mat R K) (WA WR : Mat K J) (b : Mat 1 J) : Mat R J :=
  fun i => max (pre A B WA WR b (rowOf i) (colOf i)) (Ideal.ofBits .f32 0x00000000#32)

/-- A row's maximum, folded from the float word of −∞. -/
def rowMax {R K J : Nat} (A B : Mat R K) (WA WR : Mat K J) (b : Mat 1 J) (r : Fin R) : EReal :=
  (Finset.univ : Finset (Fin J)).fold max (Ideal.ofBits .f32 0xFF800000#32) (fun j => pre A B WA WR b r j)

/-- A row shifted by its maximum. -/
def shifted {R K J : Nat} (A B : Mat R K) (WA WR : Mat K J) (b : Mat 1 J) (r : Fin R) (j : Fin J) : EReal :=
  pre A B WA WR b r j - rowMax A B WA WR b r

/-- The second layer: each row's log-softmax. -/
def logSoftmax {R K J : Nat} (A B : Mat R K) (WA WR : Mat K J) (b : Mat 1 J) : Mat R J :=
  fun i => shifted A B WA WR b (rowOf i) (colOf i)
    - Ideal.log (∑ j : Fin J, Ideal.exp (shifted A B WA WR b (rowOf i) j))

/-- Rows are independent: if two pairs of inputs agree on row r and row r' respectively, the pre-activations agree. -/
theorem pre_congr_row {R R' K J : Nat} {A B : Mat R K} {A' B' : Mat R' K} (WA WR : Mat K J) (b : Mat 1 J) {r : Fin R} {r' : Fin R'}
    (hA : ∀ k : Fin K, A (ix2 r k) = A' (ix2 r' k)) (hB : ∀ k : Fin K, B (ix2 r k) = B' (ix2 r' k)) (j : Fin J) :
    pre A B WA WR b r j = pre A' B' WA WR b r' j := by
  unfold pre
  simp only [hA, hB]

theorem rowMax_congr_row {R R' K J : Nat} {A B : Mat R K} {A' B' : Mat R' K} (WA WR : Mat K J) (b : Mat 1 J) {r : Fin R} {r' : Fin R'}
    (hA : ∀ k : Fin K, A (ix2 r k) = A' (ix2 r' k)) (hB : ∀ k : Fin K, B (ix2 r k) = B' (ix2 r' k)) :
    rowMax A B WA WR b r = rowMax A' B' WA WR b r' := by
  unfold rowMax
  simp only [pre_congr_row WA WR b hA hB]

theorem shifted_congr_row {R R' K J : Nat} {A B : Mat R K} {A' B' : Mat R' K} (WA WR : Mat K J) (b : Mat 1 J) {r : Fin R} {r' : Fin R'}
    (hA : ∀ k : Fin K, A (ix2 r k) = A' (ix2 r' k)) (hB : ∀ k : Fin K, B (ix2 r k) = B' (ix2 r' k)) (j : Fin J) :
    shifted A B WA WR b r j = shifted A' B' WA WR b r' j := by
  unfold shifted
  rw [pre_congr_row WA WR b hA hB, rowMax_congr_row WA WR b hA hB]

/-- The three summands of the pre-activation in the other order: the bias added before the second product. -/
theorem pre_eq_bias_first {R K J : Nat} (A B : Mat R K) (WA WR : Mat K J) (b : Mat 1 J) (r : Fin R) (j : Fin J) :
    ((∑ k : Fin K, A (ix2 r k) * WA (ix2 k j)) + b (ix2 (0 : Fin 1) j)) + (∑ k : Fin K, B (ix2 r k) * WR (ix2 k j))
      = pre A B WA WR b r j := by
  unfold pre
  exact add_right_comm _ _ _

/-- Taking the maximum with the value a maximum was folded from changes nothing. -/
theorem max_init_fold {ι : Type} (s : Finset ι) (c : EReal) (f : ι → EReal) : max c (s.fold max c f) = s.fold max c f :=
  max_eq_right (Finset.le_fold_max c |>.mpr (Or.inl le_rfl))

end Cert.Sage

end
-- ==== Proof.Block0.lean ====
/-
  One block of the first layer. The kernel's body, read at the extended reals, takes a 4000-row block of the
  aggregated features and of the node features, the two weight matrices and the bias row, and stores the rectified
  pre-activation: both matrix products start from a zero accumulator, so each is the plain sum over the 128
  contracted columns, the bias row is laid along every row, and the maximum with the zero word is taken entrywise.
  That is `Cert.Sage.hidden` at 4000 rows.
-/
import proofs.«182133_j21311627723552_1_alg».proof.Proof.Gen.KernelIdeal.Skeleton
import proofs.«182133_j21311627723552_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Layer1

open Cert.KernelIdeal Cert.KernelIdeal.Gen Idealize.ShloMosaic Idealize.ShloMosaic.ValueIdx

/-! ## The product's operand indices

The product contracts the left operand's axis 1 with the right operand's axis 0. At output index i and contraction
index q the left operand is read at (i 0, q) and the right operand at (q, i 1). -/

/-- The left operand's row is the output's row. -/
theorem lhs_block_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
/-- The left operand's column is the contraction coordinate. -/
theorem lhs_block_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
/-- The right operand's row is the contraction coordinate. -/
theorem rhs_block_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
/-- The right operand's column is the output's column. -/
theorem rhs_block_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- A product into the zero accumulator, at row r and column j: the sum over the 128 contracted columns of the
    left operand's row r against the right operand's column j. -/
theorem product_apply (a : FVec Ideal S4000x128 .bf16) (w : FVec Ideal S128x256 .bf16) (r : Fin 4000) (j : Fin 256) :
    matmul (F := Ideal) dot_S4000x128_S128x256_S4000x256_1_0_0_1_n_n none a w (constant (F := Ideal) S4000x256 .f32 0x00000000#32) (ix2 r j)
      = ∑ k : Fin 128, a (ix2 r k) * w (ix2 k j) := by
  simp only [matmul]
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 r j) ((contrEquiv1 dot_S4000x128_S128x256_S4000x256_1_0_0_1_n_n 128 rfl rfl).symm k) = ix2 r k := funext fun a => Fin.ext (by
    match a with
    | ⟨0, _⟩ => exact lhs_block_0 _ _
    | ⟨1, _⟩ => exact (lhs_block_1 _ _).trans hk)
  have er : dot_S4000x128_S128x256_S4000x256_1_0_0_1_n_n.rhsIdx (ix2 r j) ((contrEquiv1 dot_S4000x128_S128x256_S4000x256_1_0_0_1_n_n 128 rfl rfl).symm k) = ix2 k j := funext fun a => Fin.ext (by
    match a with
    | ⟨0, _⟩ => exact (rhs_block_0 _ _).trans hk
    | ⟨1, _⟩ => exact rhs_block_1 _ _)
  rw [el, er]

/-- The bias row laid along the 4000 rows reads, at row r and column j, the bias at column j. -/
theorem bias_apply (b : FVec Ideal S1x256 .f32) (r : Fin 4000) (j : Fin 256) :
    broadcastTo S4000x256 b broadcasts_S1x256_S4000x256 (ix2 r j) = b (ix2 (0 : Fin 1) j) :=
  broadcastTo_apply b broadcasts_S1x256_S4000x256 (ix2 r j) (ix2 (0 : Fin 1) j) (fun a => by
    match a with
    | ⟨0, _⟩ => rfl
    | ⟨1, _⟩ => rfl)

/-- The stored block is the rectified pre-activation of the loaded blocks, entry by entry. -/
theorem block_eq (x0 x1 : Vec Ideal S4000x128 .bf16) (x2 x3 : Vec Ideal S128x256 .bf16) (x4 : Vec Ideal S1x256 .f32) :
    k0_pay1 (F := Ideal) x0 x1 x2 x3 x4 = Cert.Sage.hidden (R := 4000) (K := 128) (J := 256) x0 x1 x2 x3 x4 := by
  funext i
  obtain ⟨r, j, rfl⟩ : ∃ (r : Fin 4000) (j : Fin 256), i = ix2 r j := ⟨i 0, i 1, eq_ix2 i⟩
  unfold k0_pay1 Cert.Sage.hidden Cert.Sage.pre
  rw [maximumf_apply, addf_apply, addf_apply, broadcast_apply]
  rw [shapeCast_self x0, shapeCast_self x1, shapeCast_self x2, shapeCast_self x3, shapeCast_self x4]
  rw [product_apply, product_apply, bias_apply]
  rfl

end Cert.KernelIdeal.Layer1

end
-- ==== Proof.Array0.lean ====
/-
  The first layer's whole output array. Grid point t stores rows 4000·t … 4000·t + 3999; the 25 points tile the
  100000 rows. Since the layer is computed row by row, block t of the whole-array function `Cert.Sage.hidden` at
  100000 rows is that function at 4000 rows of block t of the inputs, which is what the body stores
  (`Layer1.block_eq`); so the array the region leaves is `hidden` of the arrays it found.
-/
import proofs.«182133_j21311627723552_1_alg».proof.Proof.Gen.KernelIdeal.Frame
import proofs.«182133_j21311627723552_1_alg».proof.Proof.Block0

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The layer is computed row by row

Row r of the block at offset o is row o + r of the array, the weights and the bias are the same: so the layer of the
block, at row r, is the layer of the array at row o + r. Stated for any two row counts and any two indices whose rows
carry the same inputs and whose columns agree. -/

/-- If row `rowOf y` of (A', B') is row `rowOf i` of (A, B), and the weights and bias agree, the first layer of
    (A', B') at y is the first layer of (A, B) at i, whenever y and i name the same column. -/
theorem hidden_congr_row {R R' K J : Nat} (A B : Cert.Sage.Mat R K) (A' B' : Cert.Sage.Mat R' K)
    (WA WR WA' WR' : Cert.Sage.Mat K J) (b b' : Cert.Sage.Mat 1 J) (hWA : WA' = WA) (hWR : WR' = WR) (hb : b' = b)
    (y : (⟨2, ![R', J]⟩ : Shape).Idx) (i : (⟨2, ![R, J]⟩ : Shape).Idx)
    (hA : ∀ k : Fin K, A' (ix2 (Cert.Sage.rowOf y) k) = A (ix2 (Cert.Sage.rowOf i) k))
    (hB : ∀ k : Fin K, B' (ix2 (Cert.Sage.rowOf y) k) = B (ix2 (Cert.Sage.rowOf i) k))
    (hcol : Cert.Sage.colOf y = Cert.Sage.colOf i) :
    Cert.Sage.hidden A' B' WA' WR' b' y = Cert.Sage.hidden A B WA WR b i := by
  subst hWA hWR hb
  unfold Cert.Sage.hidden
  rw [Cert.Sage.pre_congr_row WA' WR' b' hA hB, hcol]

/-! ## The windows over the grid

Twenty-five points, one per block of 4000 rows. The two feature windows and the output window are at block (t, 0)
at point t; the two weight windows and the bias window stay at block (0, 0). -/

/-- The zero offsets of a whole-buffer access. -/
theorem offsets_zero : (![0, 0] : Fin 2 → Nat) = fun _ => 0 := funext fun a => by fin_cases a <;> rfl

/-- The printed index maps, decided once over the grid. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block, read off the array the region found

An element of a window's block at point t sits in the array, on each axis, at the block index times the block's
extent plus its own coordinate. For the two feature windows that is row 4000 t + r; the weight and bias windows are
their whole arrays. -/

/-- The aggregated-feature block at point t is rows 4000 t … 4000 t + 3999 of its array. -/
theorem agg_block_apply (c : Dev nD) (t : Fin cfg0.N) (x : S4000x128.Idx) (k : S100000x128.Idx)
    (hk0 : (k 0).val = 4000 * t.val + (x 0).val) (hk1 : (k 1).val = (x 1).val) :
    (iblk0 (F := Ideal) V c 0 t : Vec Ideal S4000x128 .bf16) x = (V c main_v27 : S100000x128.Idx → Elt Ideal .bf16) k := by
  obtain ⟨e0, e1, -⟩ := index_facts t
  unfold iblk0
  rw [View.read_apply]
  show V c main_v27 _ = V c main_v27 _
  congr 1
  funext a
  apply Fin.ext
  match a with
  | ⟨0, _⟩ => show win0_0.index t 0 * 4000 + 1 * (x 0).val = (k 0).val; rw [e0, hk0]; omega
  | ⟨1, _⟩ => show win0_0.index t 1 * 128 + 1 * (x 1).val = (k 1).val; rw [e1, hk1]; omega

/-- The node-feature block at point t is rows 4000 t … 4000 t + 3999 of its array. -/
theorem node_block_apply (c : Dev nD) (t : Fin cfg0.N) (x : S4000x128.Idx) (k : S100000x128.Idx)
    (hk0 : (k 0).val = 4000 * t.val + (x 0).val) (hk1 : (k 1).val = (x 1).val) :
    (iblk0 (F := Ideal) V c 1 t : Vec Ideal S4000x128 .bf16) x = (V c main_v28 : S100000x128.Idx → Elt Ideal .bf16) k := by
  obtain ⟨-, -, e0, e1, -⟩ := index_facts t
  unfold iblk0
  rw [View.read_apply]
  show V c main_v28 _ = V c main_v28 _
  congr 1
  funext a
  apply Fin.ext
  match a with
  | ⟨0, _⟩ => show win0_1.index t 0 * 4000 + 1 * (x 0).val = (k 0).val; rw [e0, hk0]; omega
  | ⟨1, _⟩ => show win0_1.index t 1 * 128 + 1 * (x 1).val = (k 1).val; rw [e1, hk1]; omega

/-- The first weight window's block is its whole array at every point. -/
theorem weightA_block_eq (c : Dev nD) (t : Fin cfg0.N) :
    (iblk0 (F := Ideal) V c 2 t : Vec Ideal S128x256 .bf16) = (V c main_v23 : S128x256.Idx → Elt Ideal .bf16) := by
  obtain ⟨-, -, -, -, e0, e1, -⟩ := index_facts t
  funext x
  unfold iblk0
  rw [View.read_apply]
  show V c main_v23 _ = V c main_v23 _
  congr 1
  funext a
  apply Fin.ext
  match a with
  | ⟨0, _⟩ => show win0_2.index t 0 * 128 + 1 * (x 0).val = (x 0).val; rw [e0]; omega
  | ⟨1, _⟩ => show win0_2.index t 1 * 256 + 1 * (x 1).val = (x 1).val; rw [e1]; omega

/-- The second weight window's block is its whole array at every point. -/
theorem weightR_block_eq (c : Dev nD) (t : Fin cfg0.N) :
    (iblk0 (F := Ideal) V c 3 t : Vec Ideal S128x256 .bf16) = (V c main_v25 : S128x256.Idx → Elt Ideal .bf16) := by
  obtain ⟨-, -, -, -, -, -, e0, e1, -⟩ := index_facts t
  funext x
  unfold iblk0
  rw [View.read_apply]
  show V c main_v25 _ = V c main_v25 _
  congr 1
  funext a
  apply Fin.ext
  match a with
  | ⟨0, _⟩ => show win0_3.index t 0 * 128 + 1 * (x 0).val = (x 0).val; rw [e0]; omega
  | ⟨1, _⟩ => show win0_3.index t 1 * 256 + 1 * (x 1).val = (x 1).val; rw [e1]; omega

/-- The bias window's block is its whole array at every point. -/
theorem bias_block_eq (c : Dev nD) (t : Fin cfg0.N) :
    (iblk0 (F := Ideal) V c 4 t : Vec Ideal S1x256 .f32) = (V c main_v26 : S1x256.Idx → Elt Ideal .f32) := by
  obtain ⟨-, -, -, -, -, -, -, -, e0, e1, -⟩ := index_facts t
  funext x
  unfold iblk0
  rw [View.read_apply]
  show V c main_v26 _ = V c main_v26 _
  congr 1
  funext a
  apply Fin.ext
  match a with
  | ⟨0, _⟩ => show win0_4.index t 0 * 1 + 1 * (x 0).val = (x 0).val; rw [e0]; omega
  | ⟨1, _⟩ => show win0_4.index t 1 * 256 + 1 * (x 1).val = (x 1).val; rw [e1]; omega

/-! ## What a point writes back -/

/-- The first layer of the blocks at point t, at block index y, is the first layer of the arrays at any index i
    that names row 4000 t + (row of y) and the column of y. -/
theorem hidden_block_apply (c : Dev nD) (t : Fin cfg0.N) (y : S4000x256.Idx) (i : S100000x256.Idx)
    (hi0 : (i 0).val = 4000 * t.val + (y 0).val) (hi1 : (i 1).val = (y 1).val) :
    Cert.Sage.hidden (R := 4000) (K := 128) (J := 256) (iblk0 (F := Ideal) V c 0 t) (iblk0 (F := Ideal) V c 1 t) (iblk0 (F := Ideal) V c 2 t) (iblk0 (F := Ideal) V c 3 t) (iblk0 (F := Ideal) V c 4 t) y
      = Cert.Sage.hidden (R := 100000) (K := 128) (J := 256) (V c main_v27) (V c main_v28) (V c main_v23) (V c main_v25) (V c main_v26) i :=
  hidden_congr_row _ _ _ _ _ _ _ _ _ _ (weightA_block_eq V c t) (weightR_block_eq V c t) (bias_block_eq V c t) y i
    (fun k => agg_block_apply V c t _ _ hi0 rfl) (fun k => node_block_apply V c t _ _ hi0 rfl) (Fin.ext hi1.symm)

/-- WHAT POINT t WRITES BACK is block t of the first layer of the arrays the region found. -/
theorem flushed_eq (c : Dev nD) (t : Fin cfg0.N) :
    (dat0 (F := Ideal) V c).flushed 5 t = ((cfg0.win 5).blk t).view.read (Elt Ideal)
      (Cert.Sage.hidden (R := 100000) (K := 128) (J := 256) (V c main_v27) (V c main_v28) (V c main_v23) (V c main_v25) (V c main_v26)) := by
  show (cfg0.win 5).cut (grid0.coords t) ((dat0 V c).after 5 t) = _
  rw [after0_5]
  unfold out0_5
  rw [View.canon_unit_zero offsets_zero]
  simp only [View.ld_unit_zero (S := S4000x128) offsets_zero, View.ld_unit_zero (S := S128x256) offsets_zero, View.ld_unit_zero (S := S1x256) offsets_zero]
  rw [Layer1.block_eq]
  obtain ⟨-, -, -, -, -, -, -, -, -, -, e0, e1⟩ := index_facts t
  funext y
  rw [View.read_apply]
  refine hidden_block_apply V c t y _ ?_ ?_
  · show win0_5.index t 0 * 4000 + 1 * (y 0).val = 4000 * t.val + (y 0).val
    rw [e0]; omega
  · show win0_5.index t 1 * 256 + 1 * (y 1).val = (y 1).val
    rw [e1]; omega

/-! ## The blocks tile the array -/

/-- An index of the output array is in point t's block iff each coordinate is in the block's range on its axis. -/
theorem mem_block (t : Fin cfg0.N) (i : S100000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v29).slice (win0_5.rect t)).set ↔ _
  rw [View.set_slice_whole, Rect.mem_set_unit]
  exact Iff.rfl

/-- Row r is in the block of point r / 4000, and 25 · 4000 = 100000: every index of the output array is in some
    point's block, and every point writes its block back. -/
theorem covered (i : S100000x256.Idx) :
    ∃ t : Fin cfg0.N, (cfg0.win 5).flush t = true ∧ i ∈ ((cfg0.win 5).blk t).view.set := by
  have hN : cfg0.N = 25 := N_0
  have hi0 : (i 0).val < 100000 := (i 0).isLt
  have hi1 : (i 1).val < 256 := (i 1).isLt
  obtain ⟨t, ht⟩ : ∃ t : Fin cfg0.N, t.val = (i 0).val / 4000 :=
    ⟨⟨(i 0).val / 4000, by rw [hN]; omega⟩, rfl⟩
  obtain ⟨-, -, -, -, -, -, -, -, -, -, e0, e1⟩ := index_facts t
  refine ⟨t, flush0_5 t, ?_⟩
  rw [mem_block]
  intro a
  match a with
  | ⟨0, _⟩ => show win0_5.index t 0 * 4000 ≤ (i 0).val ∧ (i 0).val < win0_5.index t 0 * 4000 + 4000; rw [e0, ht]; omega
  | ⟨1, _⟩ => show win0_5.index t 1 * 256 ≤ (i 1).val ∧ (i 1).val < win0_5.index t 1 * 256 + 256; rw [e1]; omega

/-- After region 0 its output array holds the first layer of the arrays the region was entered with. -/
theorem array_eq (c : Dev nD) :
    (dat0 (F := Ideal) V c).arrAt 5 cfg0.N
      = Cert.Sage.hidden (R := 100000) (K := 128) (J := 256) (V c main_v27) (V c main_v28) (V c main_v23) (V c main_v25) (V c main_v26) := by
  exact (dat0 (F := Ideal) V c).arrAt_eq_of_cover 5 _ (fun t _ => flushed_eq V c t) covered

end Cert.KernelIdeal.Layer1

end
-- ==== Proof.Block1.lean ====
/-
  One block of the second layer. The body forms the same three-term pre-activation from 4000-row blocks (256
  contracted columns, 64 outputs), takes each row's maximum from the word of −∞, subtracts it, and subtracts the
  logarithm of the row's sum of exponentials: `Cert.Sage.logSoftmax` at 4000 rows.
-/
import proofs.«182133_j21311627723552_1_alg».proof.Proof.Gen.KernelIdeal.Skeleton
import proofs.«182133_j21311627723552_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Layer2

open Cert.KernelIdeal Cert.KernelIdeal.Gen Idealize.ShloMosaic Idealize.ShloMosaic.ValueIdx

/-- The left operand's row coordinate is the output's row. -/
theorem lhs_dot_0 (i : S4000x64.Idx) (q : dot_S4000x256_S256x64_S4000x64_1_0_0_1_n_n.contr.Idx) :
    (dot_S4000x256_S256x64_S4000x64_1_0_0_1_n_n.lhsIdx i q 0).val = (i 0).val := by
  unfold DotDims.lhsIdx
  rw [dif_neg (show ¬(0 : Fin S4000x256.rank) ∈ dot_S4000x256_S256x64_S4000x64_1_0_0_1_n_n.lhsBatch by decide), dif_pos (show (0 : Fin S4000x256.rank) ∈ dot_S4000x256_S256x64_S4000x64_1_0_0_1_n_n.lhsNonContracting by decide)]
  rfl
/-- The left operand's column coordinate is the contracted one. -/
theorem lhs_dot_1 (i : S4000x64.Idx) (q : dot_S4000x256_S256x64_S4000x64_1_0_0_1_n_n.contr.Idx) :
    (dot_S4000x256_S256x64_S4000x64_1_0_0_1_n_n.lhsIdx i q 1).val = (q ⟨0, by decide⟩).val :=
  dot_S4000x256_S256x64_S4000x64_1_0_0_1_n_n.lhsIdx_val_of_single rfl i q
/-- The right operand's row coordinate is the contracted one. -/
theorem rhs_dot_0 (i : S4000x64.Idx) (q : dot_S4000x256_S256x64_S4000x64_1_0_0_1_n_n.contr.Idx) :
    (dot_S4000x256_S256x64_S4000x64_1_0_0_1_n_n.rhsIdx i q 0).val = (q ⟨0, by decide⟩).val :=
  dot_S4000x256_S256x64_S4000x64_1_0_0_1_n_n.rhsIdx_val_of_single rfl i q
/-- The right operand's column coordinate is the output's column. -/
theorem rhs_dot_1 (i : S4000x64.Idx) (q : dot_S4000x256_S256x64_S4000x64_1_0_0_1_n_n.contr.Idx) :
    (dot_S4000x256_S256x64_S4000x64_1_0_0_1_n_n.rhsIdx i q 1).val = (i 1).val := by
  unfold DotDims.rhsIdx
  rw [dif_neg (show ¬(1 : Fin S256x64.rank) ∈ dot_S4000x256_S256x64_S4000x64_1_0_0_1_n_n.rhsBatch by decide), dif_pos (show (1 : Fin S256x64.rank) ∈ dot_S4000x256_S256x64_S4000x64_1_0_0_1_n_n.rhsNonContracting by decide)]
  rfl

/-- A product into the zero accumulator, read at row r and column j: the sum over the 256 contracted columns. -/
theorem matmul_at (l : FVec Ideal S4000x256 .bf16) (w : FVec Ideal S256x64 .bf16) (r : Fin 4000) (j : Fin 64) :
    matmul (F := Ideal) dot_S4000x256_S256x64_S4000x64_1_0_0_1_n_n none l w (constant (F := Ideal) S4000x64 .f32 0x00000000#32) (ix2 r j)
      = ∑ k : Fin 256, l (ix2 r k) * w (ix2 k j) := by
  simp only [matmul]
  rw [Ideal.matmul_constant_zero_apply, ← Equiv.sum_comp (ValueIdx.contrEquiv1 dot_S4000x256_S256x64_S4000x64_1_0_0_1_n_n 256 rfl rfl).symm]
  refine Finset.sum_congr rfl fun k _ => ?_
  have hk := ValueIdx.contrEquiv1_symm_val dot_S4000x256_S256x64_S4000x64_1_0_0_1_n_n 256 rfl rfl k
  have el : dot_S4000x256_S256x64_S4000x64_1_0_0_1_n_n.lhsIdx (ix2 r j) ((ValueIdx.contrEquiv1 dot_S4000x256_S256x64_S4000x64_1_0_0_1_n_n 256 rfl rfl).symm k) = ix2 r k := funext fun a => Fin.ext (by
    match a with
    | ⟨0, _⟩ => exact lhs_dot_0 _ _
    | ⟨1, _⟩ => exact (lhs_dot_1 _ _).trans hk)
  have er : dot_S4000x256_S256x64_S4000x64_1_0_0_1_n_n.rhsIdx (ix2 r j) ((ValueIdx.contrEquiv1 dot_S4000x256_S256x64_S4000x64_1_0_0_1_n_n 256 rfl rfl).symm k) = ix2 k j := funext fun a => Fin.ext (by
    match a with
    | ⟨0, _⟩ => exact (rhs_dot_0 _ _).trans hk
    | ⟨1, _⟩ => exact rhs_dot_1 _ _)
  rw [el, er]

/-- The pre-activation as the body forms it, read at row r and column j: both products and the bias row. -/
theorem pre_at (x0 x1 : Vec Ideal S4000x256 .bf16) (x2 x3 : Vec Ideal S256x64 .bf16) (x4 : Vec Ideal S1x64 .f32) (r : Fin 4000) (j : Fin 64) :
    addf (addf (matmul (F := Ideal) dot_S4000x256_S256x64_S4000x64_1_0_0_1_n_n none (shapeCast S4000x256 x0 shapeCasts_S4000x256_S4000x256 : FVec Ideal S4000x256 .bf16) (shapeCast S256x64 x2 shapeCasts_S256x64_S256x64 : FVec Ideal S256x64 .bf16) (constant (F := Ideal) S4000x64 .f32 0x00000000#32))
          (matmul (F := Ideal) dot_S4000x256_S256x64_S4000x64_1_0_0_1_n_n none (shapeCast S4000x256 x1 shapeCasts_S4000x256_S4000x256 : FVec Ideal S4000x256 .bf16) (shapeCast S256x64 x3 shapeCasts_S256x64_S256x64 : FVec Ideal S256x64 .bf16) (constant (F := Ideal) S4000x64 .f32 0x00000000#32)))
        (broadcastTo S4000x64 (shapeCast S1x64 x4 shapeCasts_S1x64_S1x64 : FVec Ideal S1x64 .f32) broadcasts_S1x64_S4000x64) (ix2 r j)
      = Cert.Sage.pre (R := 4000) (K := 256) (J := 64) x0 x1 x2 x3 x4 r j := by
  rw [addf_apply, addf_apply, matmul_at, matmul_at, broadcastTo_1b_ab_apply]
  simp only [shapeCast_self]
  rfl

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Columns

/-- The exponential and the logarithm of a block, entry by entry. -/
theorem exp_at {s : Shape} (v : FVec Ideal s .f32) (i : s.Idx) : exp v i = Ideal.exp (v i) := rfl
theorem log_at {s : Shape} (v : FVec Ideal s .f32) (i : s.Idx) : log v i = Ideal.log (v i) := rfl

/-- The index the reduction over the columns inserts: row r, column k. -/
theorem lift_row (r : Fin 4000) (k : Fin 64) : reduces_S4000x64_S4000.lift (ix1 r) k = ix2 r k :=
  funext fun a => Fin.ext (by
    match a with
    | ⟨0, _⟩ => rfl
    | ⟨1, _⟩ => rfl)

/-- A row's maximum: the fold of max from −∞ over the row's 64 entries. -/
theorem rowMax_at (p : FVec Ideal S4000x64 .f32) (hφ : FKind.Formats .f32)
    (hmax : (0xFF800000#32 : BitVec 32) = FKind.maximumf.neutral .f32 hφ) (r : Fin 4000) :
    multiReduction (F := Ideal) .maximumf [1] S4000 p 0xFF800000#32 reduces_S4000x64_S4000 hφ hmax (ix1 r)
      = (Finset.univ : Finset (Fin 64)).fold max (Ideal.ofBits .f32 0xFF800000#32) (fun k => p (ix2 r k)) := by
  refine (Ideal.multiReduction_maximumf_single p _ reduces_S4000x64_S4000 hφ hmax (ix1 r)).trans ?_
  exact congrArg (fun f : Fin 64 → EReal => (Finset.univ : Finset (Fin 64)).fold max (Ideal.ofBits .f32 0xFF800000#32) f)
    (funext fun k => congrArg p (lift_row r k))

/-- A row's sum over its 64 entries. -/
theorem rowSum_at (p : FVec Ideal S4000x64 .f32) (hφ : FKind.Formats .f32)
    (hadd : (0x00000000#32 : BitVec 32) = FKind.add.neutral .f32 hφ) (r : Fin 4000) :
    multiReduction (F := Ideal) .add [1] S4000 p 0x00000000#32 reduces_S4000x64_S4000 hφ hadd (ix1 r)
      = ∑ k : Fin 64, p (ix2 r k) := by
  refine (Ideal.multiReduction_add_single p _ reduces_S4000x64_S4000 hφ hadd (ix1 r)).trans ?_
  exact Finset.sum_congr rfl fun k _ => congrArg p (lift_row r k)

/-- The body after its pre-activation, on any block p whose row r is q: the row less its maximum, less the logarithm
    of the sum of the exponentials of the row less its maximum. -/
theorem tail_at (p : FVec Ideal S4000x64 .f32) (r : Fin 4000) (q : Fin 64 → EReal) (hp : ∀ k : Fin 64, p (ix2 r k) = q k)
    (hφ : FKind.Formats .f32) (hmax : (0xFF800000#32 : BitVec 32) = FKind.maximumf.neutral .f32 hφ)
    (hadd : (0x00000000#32 : BitVec 32) = FKind.add.neutral .f32 hφ) (j : Fin 64) :
    subf (subf p (broadcastTo S4000x64 (shapeCast S4000x1 (multiReduction (F := Ideal) .maximumf [1] S4000 p 0xFF800000#32 reduces_S4000x64_S4000 hφ hmax) shapeCasts_S4000_S4000x1) broadcasts_S4000x1_S4000x64))
        (broadcastTo S4000x64 (log (shapeCast S4000x1 (multiReduction (F := Ideal) .add [1] S4000 (exp (subf p (broadcastTo S4000x64 (shapeCast S4000x1 (multiReduction (F := Ideal) .maximumf [1] S4000 p 0xFF800000#32 reduces_S4000x64_S4000 hφ hmax) shapeCasts_S4000_S4000x1) broadcasts_S4000x1_S4000x64))) 0x00000000#32 reduces_S4000x64_S4000 hφ hadd) shapeCasts_S4000_S4000x1)) broadcasts_S4000x1_S4000x64)
        (ix2 r j)
      = (q j - (Finset.univ : Finset (Fin 64)).fold max (Ideal.ofBits .f32 0xFF800000#32) q)
          - Ideal.log (∑ k : Fin 64, Ideal.exp (q k - (Finset.univ : Finset (Fin 64)).fold max (Ideal.ofBits .f32 0xFF800000#32) q)) := by
  have hq : (fun k : Fin 64 => p (ix2 r k)) = q := funext hp
  have hM : ∀ k : Fin 64, (broadcastTo S4000x64 (shapeCast S4000x1 (multiReduction (F := Ideal) .maximumf [1] S4000 p 0xFF800000#32 reduces_S4000x64_S4000 hφ hmax) shapeCasts_S4000_S4000x1) broadcasts_S4000x1_S4000x64) (ix2 r k)
      = (Finset.univ : Finset (Fin 64)).fold max (Ideal.ofBits .f32 0xFF800000#32) q := fun k => by
    rw [broadcastTo_a1_ab_apply, shapeCast_a_a1_apply, rowMax_at, hq]
  rw [subf_apply, subf_apply, hM, hp, broadcastTo_a1_ab_apply, log_at, shapeCast_a_a1_apply, rowSum_at]
  simp only [exp_at, subf_apply, hM, hp]

/-- The stored block is the row-wise log-softmax of the pre-activation of the loaded blocks, entry by entry. -/
theorem block_eq (x0 x1 : Vec Ideal S4000x256 .bf16) (x2 x3 : Vec Ideal S256x64 .bf16) (x4 : Vec Ideal S1x64 .f32) :
    k1_pay1 (F := Ideal) x0 x1 x2 x3 x4 = Cert.Sage.logSoftmax (R := 4000) (K := 256) (J := 64) x0 x1 x2 x3 x4 := by
  funext i
  obtain ⟨r, j, rfl⟩ : ∃ (r : Fin 4000) (j : Fin 64), i = ix2 r j := ⟨i 0, i 1, eq_ix2 i⟩
  unfold k1_pay1
  refine (tail_at _ r (fun k => Cert.Sage.pre (R := 4000) (K := 256) (J := 64) x0 x1 x2 x3 x4 r k)
    (fun k => pre_at x0 x1 x2 x3 x4 r k) _ _ _ j).trans ?_
  unfold Cert.Sage.logSoftmax Cert.Sage.shifted Cert.Sage.rowMax
  rfl

end Cert.KernelIdeal.Layer2

end
-- ==== Proof.Array1.lean ====
/-
  The second layer's whole output array: as for the first layer, the 25 blocks of 4000 rows tile the 100000 rows and
  the layer is row by row, so the array region 1 leaves is `Cert.Sage.logSoftmax` of the arrays it found.
-/
import proofs.«182133_j21311627723552_1_alg».proof.Proof.Gen.KernelIdeal.Frame
import proofs.«182133_j21311627723552_1_alg».proof.Proof.Block1

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- Both offsets of a whole-buffer access are zero. -/
theorem offsets_zero : (![0, 0] : Fin 2 → Nat) = fun _ => 0 := funext fun a => by
  match a with
  | ⟨0, _⟩ => rfl
  | ⟨1, _⟩ => rfl

/-- The printed index maps, decided once over the 25 grid points: the two feature windows and the output window sit at
    block (t, 0), the two weight windows and the bias window at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Rows are independent and the weights and the bias are shared: when row (rowOf y) of the one pair of feature
    matrices is row (rowOf i) of the other, and the columns agree, the two log-softmax entries agree. -/
theorem logSoftmax_rows {R R' K J : Nat} (A B : Cert.Sage.Mat R K) (A' B' : Cert.Sage.Mat R' K)
    (WA WR WA' WR' : Cert.Sage.Mat K J) (b b' : Cert.Sage.Mat 1 J)
    (y : (⟨2, ![R, J]⟩ : Shape).Idx) (i : (⟨2, ![R', J]⟩ : Shape).Idx)
    (hA : ∀ k : Fin K, A (ix2 (Cert.Sage.rowOf y) k) = A' (ix2 (Cert.Sage.rowOf i) k))
    (hB : ∀ k : Fin K, B (ix2 (Cert.Sage.rowOf y) k) = B' (ix2 (Cert.Sage.rowOf i) k))
    (hWA : WA = WA') (hWR : WR = WR') (hb : b = b') (hc : Cert.Sage.colOf y = Cert.Sage.colOf i) :
    Cert.Sage.logSoftmax A B WA WR b y = Cert.Sage.logSoftmax A' B' WA' WR' b' i := by
  subst hWA hWR hb
  unfold Cert.Sage.logSoftmax
  rw [hc]
  simp only [Cert.Sage.shifted_congr_row WA WR b hA hB]

/-- Row r of block t of the aggregated features is row 4000 t + r of their array. -/
theorem feat0_row (c : Dev nD) (t : Fin cfg1.N) (y : S4000x64.Idx) (k : Fin 256) :
    (iblk1 (F := Ideal) V c 0 t : S4000x256.Idx → EReal) (ix2 (Cert.Sage.rowOf y) k)
      = (V c main_v53 : S100000x256.Idx → EReal) (ix2 (Cert.Sage.rowOf (((cfg1.win 5).blk t).view.emb y)) k) := by
  obtain ⟨e00, e01, -, -, -, -, -, -, -, -, e50, e51⟩ := index_facts t
  show V c main_v53 (((cfg1.win 0).blk t).view.emb (ix2 (Cert.Sage.rowOf y) k)) = _
  refine congrArg (V c main_v53) (funext fun a => Fin.ext ?_)
  match a with
  | ⟨0, _⟩ =>
    show win1_0.index t (0 : Fin 2) * 4000 + 1 * (y 0).val = win1_5.index t (0 : Fin 2) * 4000 + 1 * (y 0).val
    omega
  | ⟨1, _⟩ =>
    show win1_0.index t (1 : Fin 2) * 256 + 1 * k.val = k.val
    omega

/-- Row r of block t of the nodes' own features is row 4000 t + r of their array. -/
theorem feat1_row (c : Dev nD) (t : Fin cfg1.N) (y : S4000x64.Idx) (k : Fin 256) :
    (iblk1 (F := Ideal) V c 1 t : S4000x256.Idx → EReal) (ix2 (Cert.Sage.rowOf y) k)
      = (V c main_v54 : S100000x256.Idx → EReal) (ix2 (Cert.Sage.rowOf (((cfg1.win 5).blk t).view.emb y)) k) := by
  obtain ⟨-, -, e10, e11, -, -, -, -, -, -, e50, e51⟩ := index_facts t
  show V c main_v54 (((cfg1.win 1).blk t).view.emb (ix2 (Cert.Sage.rowOf y) k)) = _
  refine congrArg (V c main_v54) (funext fun a => Fin.ext ?_)
  match a with
  | ⟨0, _⟩ =>
    show win1_1.index t (0 : Fin 2) * 4000 + 1 * (y 0).val = win1_5.index t (0 : Fin 2) * 4000 + 1 * (y 0).val
    omega
  | ⟨1, _⟩ =>
    show win1_1.index t (1 : Fin 2) * 256 + 1 * k.val = k.val
    omega

/-- The first weight window's block is its whole array at every point. -/
theorem weight2_whole (c : Dev nD) (t : Fin cfg1.N) :
    (iblk1 (F := Ideal) V c 2 t : S256x64.Idx → EReal) = (V c main_v49 : S256x64.Idx → EReal) := by
  obtain ⟨-, -, -, -, e20, e21, -, -, -, -, -, -⟩ := index_facts t
  funext x
  show V c main_v49 (((cfg1.win 2).blk t).view.emb x) = _
  refine congrArg (V c main_v49) (funext fun a => Fin.ext ?_)
  match a with
  | ⟨0, _⟩ =>
    show win1_2.index t (0 : Fin 2) * 256 + 1 * (x 0).val = (x 0).val
    omega
  | ⟨1, _⟩ =>
    show win1_2.index t (1 : Fin 2) * 64 + 1 * (x 1).val = (x 1).val
    omega

/-- The second weight window's block is its whole array at every point. -/
theorem weight3_whole (c : Dev nD) (t : Fin cfg1.N) :
    (iblk1 (F := Ideal) V c 3 t : S256x64.Idx → EReal) = (V c main_v51 : S256x64.Idx → EReal) := by
  obtain ⟨-, -, -, -, -, -, e30, e31, -, -, -, -⟩ := index_facts t
  funext x
  show V c main_v51 (((cfg1.win 3).blk t).view.emb x) = _
  refine congrArg (V c main_v51) (funext fun a => Fin.ext ?_)
  match a with
  | ⟨0, _⟩ =>
    show win1_3.index t (0 : Fin 2) * 256 + 1 * (x 0).val = (x 0).val
    omega
  | ⟨1, _⟩ =>
    show win1_3.index t (1 : Fin 2) * 64 + 1 * (x 1).val = (x 1).val
    omega

/-- The bias window's block is its whole array at every point. -/
theorem bias4_whole (c : Dev nD) (t : Fin cfg1.N) :
    (iblk1 (F := Ideal) V c 4 t : S1x64.Idx → EReal) = (V c main_v52 : S1x64.Idx → EReal) := by
  obtain ⟨-, -, -, -, -, -, -, -, e40, e41, -, -⟩ := index_facts t
  funext x
  show V c main_v52 (((cfg1.win 4).blk t).view.emb x) = _
  refine congrArg (V c main_v52) (funext fun a => Fin.ext ?_)
  match a with
  | ⟨0, _⟩ =>
    show win1_4.index t (0 : Fin 2) * 1 + 1 * (x 0).val = (x 0).val
    omega
  | ⟨1, _⟩ =>
    show win1_4.index t (1 : Fin 2) * 64 + 1 * (x 1).val = (x 1).val
    omega

/-- What point t writes back is block t of the second layer of the arrays the region was entered with. -/
theorem flushed_eq (c : Dev nD) (t : Fin cfg1.N) :
    (dat1 (F := Ideal) V c).flushed 5 t = ((cfg1.win 5).blk t).view.read (Elt Ideal) (Cert.Sage.logSoftmax (R := 100000) (K := 256) (J := 64) (V c main_v53) (V c main_v54) (V c main_v49) (V c main_v51) (V c main_v52)) := by
  show (cfg1.win 5).cut (grid1.coords t) ((dat1 V c).after 5 t) = _
  rw [after1_5]
  unfold out1_5
  rw [View.canon_unit_zero offsets_zero]
  simp only [View.ld_unit_zero (S := S4000x256) offsets_zero, View.ld_unit_zero (S := S256x64) offsets_zero, View.ld_unit_zero (S := S1x64) offsets_zero]
  rw [Layer2.block_eq]
  funext y
  show Cert.Sage.logSoftmax (R := 4000) (K := 256) (J := 64) (iblk1 V c 0 t) (iblk1 V c 1 t) (iblk1 V c 2 t) (iblk1 V c 3 t) (iblk1 V c 4 t) y
    = Cert.Sage.logSoftmax (R := 100000) (K := 256) (J := 64) (V c main_v53) (V c main_v54) (V c main_v49) (V c main_v51) (V c main_v52) (((cfg1.win 5).blk t).view.emb y)
  refine logSoftmax_rows _ _ _ _ _ _ _ _ _ _ y _ (feat0_row V c t y) (feat1_row V c t y)
    (weight2_whole V c t) (weight3_whole V c t) (bias4_whole V c t) (Fin.ext ?_)
  obtain ⟨-, -, -, -, -, -, -, -, -, -, e50, e51⟩ := index_facts t
  show (y 1).val = win1_5.index t (1 : Fin 2) * 64 + 1 * (y 1).val
  omega

/-- An index of the output array is in point t's block iff each coordinate is in the block's range on its axis. -/
theorem mem_blk (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v55).slice (win1_5.rect t)).set ↔ _
  rw [View.set_slice_whole, Rect.mem_set_unit]
  exact Iff.rfl

/-- The 25 blocks of 4000 rows tile the 100000 rows: row r is in the block of point r / 4000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 25 := N_1
  have ht : (i 0).val / 4000 < cfg1.N := by show (i 0).val / 4000 < grid1.N; rw [hN]; omega
  obtain ⟨-, -, -, -, -, -, -, -, -, -, e50, e51⟩ := index_facts ⟨(i 0).val / 4000, ht⟩
  refine ⟨⟨(i 0).val / 4000, ht⟩, flush1_5 _, ?_⟩
  rw [mem_blk]
  intro a
  match a with
  | ⟨0, _⟩ =>
    show win1_5.index ⟨(i 0).val / 4000, ht⟩ (0 : Fin 2) * 4000 ≤ (i 0).val ∧ (i 0).val < win1_5.index ⟨(i 0).val / 4000, ht⟩ (0 : Fin 2) * 4000 + 4000
    rw [e50]
    show (i 0).val / 4000 * 4000 ≤ (i 0).val ∧ (i 0).val < (i 0).val / 4000 * 4000 + 4000
    omega
  | ⟨1, _⟩ =>
    show win1_5.index ⟨(i 0).val / 4000, ht⟩ (1 : Fin 2) * 64 ≤ (i 1).val ∧ (i 1).val < win1_5.index ⟨(i 0).val / 4000, ht⟩ (1 : Fin 2) * 64 + 64
    omega

/-- After region 1 its output array holds the second layer of the arrays the region was entered with. -/
theorem array_eq (c : Dev nD) :
    (dat1 (F := Ideal) V c).arrAt 5 cfg1.N
      = Cert.Sage.logSoftmax (R := 100000) (K := 256) (J := 64) (V c main_v53) (V c main_v54) (V c main_v49) (V c main_v51) (V c main_v52) :=
  (dat1 V c).arrAt_eq_of_cover 5 _ (fun t _ => flushed_eq V c t) (cover)

end Cert.KernelIdeal.Layer2

end
-- ==== Proof.RefLayer.lean ====
/-
  The reference's two layers as the layer functions of the specification. Read at an index, the reference's first
  layer is max ((Σ_k mean r k · W k j + b j) + Σ_k x r k · W' k j) 0: the three-term sum with the bias in the middle,
  which is the specification's pre-activation by commutativity and associativity of + on the extended reals; the
  second layer's log-softmax takes the row maximum by a fold from −∞ and then once more against −∞ (which changes
  nothing) and adds its exponentials from the zero word.
-/
import proofs.«182133_j21311627723552_1_alg».proof.Proof.RefRead
import proofs.«182133_j21311627723552_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.ReferenceIdeal.Layers

open Cert.ReferenceIdeal Cert.ReferenceIdeal.Gen Cert.ReferenceIdeal.ReadP Idealize.ShloMosaic Idealize.ShloMosaic.ValueIdx

/-- The reference's hidden layer is the specification's, of the mean aggregate, the features, the transposed
    weights and the bias laid as a row. -/
theorem hidden_eq (x0 : (⟨S100000x128, .f32⟩ : BufTy).Contents (Elt Ideal)) (x1 : (⟨S2x640000, .i32⟩ : BufTy).Contents (Elt Ideal)) (x2 : (⟨S256x128, .f32⟩ : BufTy).Contents (Elt Ideal))
    (x3 : (⟨S256, .f32⟩ : BufTy).Contents (Elt Ideal)) (x4 : (⟨S256x128, .f32⟩ : BufTy).Contents (Elt Ideal)) :
    val_main_v30 (F := Ideal) x0 x1 x2 x3 x4
      = Cert.Sage.hidden (R := 100000) (K := 128) (J := 256) (val_main_v21 (F := Ideal) x0 x1) x0 (val_main_v22 (F := Ideal) x2)
          (val_main_v27 (F := Ideal) x4) (val_main_v24 (F := Ideal) x3) := by
  funext i
  rw [val_main_v30_apply, val_main_v29_apply, val_main_v26_apply, val_main_v23_apply, val_main_v25_apply,
    val_main_v28_apply, val_main_call1_v0_apply, val_main_call1_cst_apply]
  generalize val_main_v21 (F := Ideal) x0 x1 = M
  have el : ∀ k : Fin 128, lidx_main_v23 i k = ix2 (Cert.Sage.rowOf i) k := fun k =>
    funext fun a => Fin.ext (by match a with | ⟨0, _⟩ => rfl | ⟨1, _⟩ => rfl)
  have er : ∀ k : Fin 128, ridx_main_v23 i k = ix2 k (Cert.Sage.colOf i) := fun k =>
    funext fun a => Fin.ext (by match a with | ⟨0, _⟩ => rfl | ⟨1, _⟩ => rfl)
  have el' : ∀ k : Fin 128, lidx_main_v28 i k = ix2 (Cert.Sage.rowOf i) k := fun k =>
    funext fun a => Fin.ext (by match a with | ⟨0, _⟩ => rfl | ⟨1, _⟩ => rfl)
  have er' : ∀ k : Fin 128, ridx_main_v28 i k = ix2 k (Cert.Sage.colOf i) := fun k =>
    funext fun a => Fin.ext (by match a with | ⟨0, _⟩ => rfl | ⟨1, _⟩ => rfl)
  have eb : idx_main_v25 i = ix2 (0 : Fin 1) (Cert.Sage.colOf i) :=
    funext fun a => Fin.ext (by match a with | ⟨0, _⟩ => rfl | ⟨1, _⟩ => rfl)
  unfold Cert.Sage.hidden
  rw [← Cert.Sage.pre_eq_bias_first]
  simp only [el, er, el', er', eb, Ideal.maximumf_def, Ideal.addf_def, Ideal.ofBits_def]

/-- The second layer before its activation, read at an index: the specification's pre-activation of the second mean
    aggregate and the hidden layer (again the bias sits between the two products). -/
theorem v56_pre (x0 : (⟨S100000x128, .f32⟩ : BufTy).Contents (Elt Ideal)) (x1 : (⟨S2x640000, .i32⟩ : BufTy).Contents (Elt Ideal)) (x2 : (⟨S256x128, .f32⟩ : BufTy).Contents (Elt Ideal))
    (x3 : (⟨S256, .f32⟩ : BufTy).Contents (Elt Ideal)) (x4 : (⟨S256x128, .f32⟩ : BufTy).Contents (Elt Ideal)) (x5 : (⟨S64x256, .f32⟩ : BufTy).Contents (Elt Ideal)) (x6 : (⟨S64, .f32⟩ : BufTy).Contents (Elt Ideal))
    (x7 : (⟨S64x256, .f32⟩ : BufTy).Contents (Elt Ideal)) (i : S100000x64.Idx) :
    val_main_v56 (F := Ideal) x0 x1 x2 x3 x4 x5 x6 x7 i
      = Cert.Sage.pre (R := 100000) (K := 256) (J := 64) (val_main_v48 (F := Ideal) x0 x1 x2 x3 x4)
          (val_main_v30 (F := Ideal) x0 x1 x2 x3 x4) (val_main_v49 (F := Ideal) x5) (val_main_v54 (F := Ideal) x7)
          (val_main_v51 (F := Ideal) x6) (Cert.Sage.rowOf i) (Cert.Sage.colOf i) := by
  rw [val_main_v56_apply, val_main_v53_apply, val_main_v50_apply, val_main_v52_apply, val_main_v55_apply]
  generalize val_main_v48 (F := Ideal) x0 x1 x2 x3 x4 = A
  generalize val_main_v30 (F := Ideal) x0 x1 x2 x3 x4 = B
  have el : ∀ k : Fin 256, lidx_main_v50 i k = ix2 (Cert.Sage.rowOf i) k := fun k =>
    funext fun a => Fin.ext (by match a with | ⟨0, _⟩ => rfl | ⟨1, _⟩ => rfl)
  have er : ∀ k : Fin 256, ridx_main_v50 i k = ix2 k (Cert.Sage.colOf i) := fun k =>
    funext fun a => Fin.ext (by match a with | ⟨0, _⟩ => rfl | ⟨1, _⟩ => rfl)
  have el' : ∀ k : Fin 256, lidx_main_v55 i k = ix2 (Cert.Sage.rowOf i) k := fun k =>
    funext fun a => Fin.ext (by match a with | ⟨0, _⟩ => rfl | ⟨1, _⟩ => rfl)
  have er' : ∀ k : Fin 256, ridx_main_v55 i k = ix2 k (Cert.Sage.colOf i) := fun k =>
    funext fun a => Fin.ext (by match a with | ⟨0, _⟩ => rfl | ⟨1, _⟩ => rfl)
  have eb : idx_main_v52 i = ix2 (0 : Fin 1) (Cert.Sage.colOf i) :=
    funext fun a => Fin.ext (by match a with | ⟨0, _⟩ => rfl | ⟨1, _⟩ => rfl)
  rw [← Cert.Sage.pre_eq_bias_first]
  simp only [el, er, el', er', eb, Ideal.addf_def]

/-- Row r of the array with column k put back is the index (r, k). -/
theorem lift_row (h : S100000x64.Reduces [1] S100000) (r : S100000.Idx) (k : Fin 64) :
    h.lift r k = ix2 (⟨(r 0).val, (r 0).isLt⟩ : Fin 100000) k := by
  funext c
  apply Fin.ext
  match c with
  | ⟨0, _⟩ => rfl
  | ⟨1, _⟩ => rfl

/-- The reference's row maximum — the fold of the row from −∞, then once more the maximum with −∞ — is the
    specification's. -/
theorem call3_v2_rowMax (x0 : (⟨S100000x128, .f32⟩ : BufTy).Contents (Elt Ideal)) (x1 : (⟨S2x640000, .i32⟩ : BufTy).Contents (Elt Ideal)) (x2 : (⟨S256x128, .f32⟩ : BufTy).Contents (Elt Ideal))
    (x3 : (⟨S256, .f32⟩ : BufTy).Contents (Elt Ideal)) (x4 : (⟨S256x128, .f32⟩ : BufTy).Contents (Elt Ideal)) (x5 : (⟨S64x256, .f32⟩ : BufTy).Contents (Elt Ideal)) (x6 : (⟨S64, .f32⟩ : BufTy).Contents (Elt Ideal))
    (x7 : (⟨S64x256, .f32⟩ : BufTy).Contents (Elt Ideal)) (r : S100000.Idx) :
    val_main_call3_v2 (F := Ideal) x0 x1 x2 x3 x4 x5 x6 x7 r
      = Cert.Sage.rowMax (R := 100000) (K := 256) (J := 64) (val_main_v48 (F := Ideal) x0 x1 x2 x3 x4)
          (val_main_v30 (F := Ideal) x0 x1 x2 x3 x4) (val_main_v49 (F := Ideal) x5) (val_main_v54 (F := Ideal) x7)
          (val_main_v51 (F := Ideal) x6) (⟨(r 0).val, (r 0).isLt⟩ : Fin 100000) := by
  have h : S100000x64.Reduces [1] S100000 := by decide
  rw [val_main_call3_v2_apply, val_main_call3_v1_apply, val_main_call3_cst_0_apply]
  unfold val_main_call3_v0
  rw [Host.reduce_eq_fold_single FloatOps.maximumf _ _ reducesTo_S100000x64_S100000_d1 h h_S_ r]
  show max (Ideal.ofBits .f32 0xFF800000#32) ((Finset.univ : Finset (Fin 64)).fold max (Ideal.ofBits .f32 0xFF800000#32)
      (fun k => val_main_v56 (F := Ideal) x0 x1 x2 x3 x4 x5 x6 x7 (h.lift r k))) = _
  refine (Cert.Sage.max_init_fold _ _ _).trans ?_
  unfold Cert.Sage.rowMax
  refine congrArg (fun f => (Finset.univ : Finset (Fin 64)).fold max (Ideal.ofBits .f32 0xFF800000#32) f) (funext fun k => ?_)
  rw [lift_row h r k, v56_pre] <;> rfl

/-- The reference's row shifted by its maximum is the specification's. -/
theorem call3_v5_shifted (x0 : (⟨S100000x128, .f32⟩ : BufTy).Contents (Elt Ideal)) (x1 : (⟨S2x640000, .i32⟩ : BufTy).Contents (Elt Ideal)) (x2 : (⟨S256x128, .f32⟩ : BufTy).Contents (Elt Ideal))
    (x3 : (⟨S256, .f32⟩ : BufTy).Contents (Elt Ideal)) (x4 : (⟨S256x128, .f32⟩ : BufTy).Contents (Elt Ideal)) (x5 : (⟨S64x256, .f32⟩ : BufTy).Contents (Elt Ideal)) (x6 : (⟨S64, .f32⟩ : BufTy).Contents (Elt Ideal))
    (x7 : (⟨S64x256, .f32⟩ : BufTy).Contents (Elt Ideal)) (i : S100000x64.Idx) :
    val_main_call3_v5 (F := Ideal) x0 x1 x2 x3 x4 x5 x6 x7 i
      = Cert.Sage.shifted (R := 100000) (K := 256) (J := 64) (val_main_v48 (F := Ideal) x0 x1 x2 x3 x4)
          (val_main_v30 (F := Ideal) x0 x1 x2 x3 x4) (val_main_v49 (F := Ideal) x5) (val_main_v54 (F := Ideal) x7)
          (val_main_v51 (F := Ideal) x6) (Cert.Sage.rowOf i) (Cert.Sage.colOf i) := by
  rw [val_main_call3_v5_apply, val_main_call3_v4_apply, val_main_call3_v3_apply, call3_v2_rowMax, v56_pre]
  rfl

/-- The reference's result is the specification's log-softmax layer, of the second mean aggregate, the hidden
    layer, the transposed weights and the bias laid as a row. -/
theorem logSoftmax_eq (x0 : (⟨S100000x128, .f32⟩ : BufTy).Contents (Elt Ideal)) (x1 : (⟨S2x640000, .i32⟩ : BufTy).Contents (Elt Ideal)) (x2 : (⟨S256x128, .f32⟩ : BufTy).Contents (Elt Ideal))
    (x3 : (⟨S256, .f32⟩ : BufTy).Contents (Elt Ideal)) (x4 : (⟨S256x128, .f32⟩ : BufTy).Contents (Elt Ideal)) (x5 : (⟨S64x256, .f32⟩ : BufTy).Contents (Elt Ideal)) (x6 : (⟨S64, .f32⟩ : BufTy).Contents (Elt Ideal))
    (x7 : (⟨S64x256, .f32⟩ : BufTy).Contents (Elt Ideal)) :
    val_main_v57 (F := Ideal) x0 x1 x2 x3 x4 x5 x6 x7
      = Cert.Sage.logSoftmax (R := 100000) (K := 256) (J := 64) (val_main_v48 (F := Ideal) x0 x1 x2 x3 x4)
          (val_main_v30 (F := Ideal) x0 x1 x2 x3 x4) (val_main_v49 (F := Ideal) x5) (val_main_v54 (F := Ideal) x7)
          (val_main_v51 (F := Ideal) x6) := by
  funext i
  rw [val_main_v57_apply, val_main_call3_v10_apply, val_main_call3_v9_apply, val_main_call3_v8_apply,
    val_main_call3_v7_apply, val_main_call3_cst_1_apply, call3_v5_shifted]
  have hr : ∀ k : Fin 64,
      Cert.Sage.rowOf (idx_main_call3_v7 (idx_main_call3_v8 (idx_main_call3_v10 i)) k) = Cert.Sage.rowOf i := fun k => rfl
  have hc : ∀ k : Fin 64,
      Cert.Sage.colOf (idx_main_call3_v7 (idx_main_call3_v8 (idx_main_call3_v10 i)) k) = k := fun k => rfl
  have hs : ∀ k : Fin 64,
      val_main_call3_v6 (F := Ideal) x0 x1 x2 x3 x4 x5 x6 x7 (idx_main_call3_v7 (idx_main_call3_v8 (idx_main_call3_v10 i)) k)
        = Ideal.exp (Cert.Sage.shifted (R := 100000) (K := 256) (J := 64) (val_main_v48 (F := Ideal) x0 x1 x2 x3 x4)
          (val_main_v30 (F := Ideal) x0 x1 x2 x3 x4) (val_main_v49 (F := Ideal) x5) (val_main_v54 (F := Ideal) x7)
          (val_main_v51 (F := Ideal) x6) (Cert.Sage.rowOf i) k) := fun k => by
    rw [val_main_call3_v6_apply, call3_v5_shifted, Ideal.hostUnary_exp_def, hr, hc]
  simp only [hs]
  rw [Ideal.ofBits_def, Ideal.ofBits_zero_f32, zero_add, Ideal.subf_def, Ideal.hostUnary_log_def]
  unfold Cert.Sage.logSoftmax
  exact Eq.refl _

end Cert.ReferenceIdeal.Layers

end
-- ==== Proof.SpecCongr.lean ====
/-
  The bias enters a layer only through its entries (0, j), so two bias rows that agree there give the same layer; and a
  vector laid as one row, whether by a reshape or by a broadcast along the column axis, has the vector's entry j at
  (0, j).
-/
import proofs.«182133_j21311627723552_1_alg».proof.Proof.Spec
import Idealize.ShloMosaic.Lib.Pipeline.Value

noncomputable section

namespace Cert.Sage

open Idealize.ShloMosaic Idealize.ShloMosaic.ValueIdx

variable {R K J : Nat} (A B : Mat R K) (WA WR : Mat K J) {b b' : Mat 1 J}

theorem pre_congr_bias (hb : ∀ j : Fin J, b (ix2 (0 : Fin 1) j) = b' (ix2 (0 : Fin 1) j)) (r : Fin R) (j : Fin J) :
    pre A B WA WR b r j = pre A B WA WR b' r j := by
  unfold pre
  rw [hb j]

theorem hidden_congr_bias (hb : ∀ j : Fin J, b (ix2 (0 : Fin 1) j) = b' (ix2 (0 : Fin 1) j)) :
    hidden A B WA WR b = hidden A B WA WR b' := by
  funext i
  unfold hidden
  rw [pre_congr_bias A B WA WR hb]

theorem logSoftmax_congr_bias (hb : ∀ j : Fin J, b (ix2 (0 : Fin 1) j) = b' (ix2 (0 : Fin 1) j)) :
    logSoftmax A B WA WR b = logSoftmax A B WA WR b' := by
  funext i
  unfold logSoftmax shifted rowMax
  simp only [pre_congr_bias A B WA WR hb]

/-- A vector reshaped to one row: entry (0, j) is the vector's entry j (the two indices have the same row-major
    position, 0 · J + j = j). -/
theorem shapeCast_row_apply {α : Type} (x : (⟨1, ![J]⟩ : Shape).Idx → α)
    (h : (⟨1, ![J]⟩ : Shape).ShapeCasts ⟨2, ![1, J]⟩) (j : Fin J) :
    shapeCast ⟨2, ![1, J]⟩ x h (ix2 (0 : Fin 1) j) = x (ix1 j) := by
  refine shapeCast_apply x h _ (ix1 j) ?_
  rw [Shape.rowMajor_val_one, Shape.rowMajor_val_two]
  show j.val = 0 * J + j.val
  omega

/-- A vector broadcast along the column axis to one row: entry (0, j) is the vector's entry j. -/
theorem broadcastInDim_row_apply {α : Type} (h : (⟨1, ![J]⟩ : Shape).BroadcastsInDim ⟨2, ![1, J]⟩ ![1])
    (x : (⟨1, ![J]⟩ : Shape).Idx → α) (j : Fin J) :
    broadcastInDim ⟨2, ![1, J]⟩ ![1] h x (ix2 (0 : Fin 1) j) = x (ix1 j) := by
  refine broadcastInDim_apply ![1] h x _ (ix1 j) (fun a => ?_)
  match a with
  | ⟨0, _⟩ =>
    show j.val = if J = 1 then 0 else j.val
    split
    · have := j.isLt; omega
    · rfl

end Cert.Sage

end
-- ==== Proof.KValue.lean ====
/-
  The kernel program's result, as a function of the argument arrays. Region 0 leaves the first layer of the arrays it
  was entered with; those are the reference's first mean aggregate, the features, the transposed weights and the bias
  row (rounding to bf16 is the identity on the extended reals), so its output array is the reference's hidden layer.
  The second host stretch then computes the reference's second mean aggregate of that array, and region 1 leaves the
  log-softmax layer of it: the reference's result. The only difference left between the two sides is how the bias is
  laid as a row — a reshape here, a broadcast along the column axis there — and both have the bias's entry j at (0, j).
-/
import proofs.«182133_j21311627723552_1_alg».proof.Proof.KHost
import proofs.«182133_j21311627723552_1_alg».proof.Proof.Array0
import proofs.«182133_j21311627723552_1_alg».proof.Proof.Array1
import proofs.«182133_j21311627723552_1_alg».proof.Proof.RefLayer
import proofs.«182133_j21311627723552_1_alg».proof.Proof.SpecCongr

set_option maxRecDepth 16384

noncomputable section

namespace Cert.KernelIdeal.Result

open Cert.KernelIdeal Cert.KernelIdeal.Gen Cert.KernelIdeal.HostSide
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- Rounding to bf16 is the identity on the extended reals. -/
theorem round_eq {s : Shape} (x : FVec Ideal s .f32) (h : FTy.bf16.bits < FTy.f32.bits) :
    (truncf .bf16 x h : FVec Ideal s .bf16) = x := rfl

/-- Region 0's output array is the reference's hidden layer of the argument arrays. -/
theorem hidden_layer : W4 m ρ c (Proc.devRef .tc main_v29)
    = Cert.ReferenceIdeal.ReadP.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W4_arr m ρ c 5).trans (Layer1.array_eq (V3 m ρ) c)).trans ?_
  show Cert.Sage.hidden (R := 100000) (K := 128) (J := 256) (W3 m ρ c (Proc.devRef .tc main_v27)) (W3 m ρ c (Proc.devRef .tc main_v28)) (W3 m ρ c (Proc.devRef .tc main_v23))
    (W3 m ρ c (Proc.devRef .tc main_v25)) (W3 m ρ c (Proc.devRef .tc main_v26)) = _
  rw [in0_mean, in0_feat, in0_wagg, in0_wroot, in0_bias, Cert.ReferenceIdeal.Layers.hidden_eq]
  simp only [round_eq]
  unfold Cert.ReferenceIdeal.ReadP.val_main_v22 Cert.ReferenceIdeal.ReadP.val_main_v27
  refine Cert.Sage.hidden_congr_bias _ _ _ _ (fun j => ?_)
  rw [Cert.Sage.shapeCast_row_apply]
  unfold Cert.ReferenceIdeal.ReadP.val_main_v24
  exact (Cert.Sage.broadcastInDim_row_apply _ _ j).symm

/-- The result buffer after the run is the reference's result of the argument arrays. -/
theorem result : W8 m ρ c (Proc.devRef .tc main_v55)
    = Cert.ReferenceIdeal.ReadP.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hH := hidden_layer m ρ c
  refine ((W8_arr m ρ c 5).trans (Layer2.array_eq (V7 m ρ) c)).trans ?_
  show Cert.Sage.logSoftmax (R := 100000) (K := 256) (J := 64) (W7 m ρ c (Proc.devRef .tc main_v53)) (W7 m ρ c (Proc.devRef .tc main_v54)) (W7 m ρ c (Proc.devRef .tc main_v49))
    (W7 m ρ c (Proc.devRef .tc main_v51)) (W7 m ρ c (Proc.devRef .tc main_v52)) = _
  rw [in1_mean m ρ c hH, in1_feat m ρ c hH, in1_wagg, in1_wroot, in1_bias, Cert.ReferenceIdeal.Layers.logSoftmax_eq]
  simp only [round_eq]
  unfold Cert.ReferenceIdeal.ReadP.val_main_v49 Cert.ReferenceIdeal.ReadP.val_main_v54
  refine Cert.Sage.logSoftmax_congr_bias _ _ _ _ (fun j => ?_)
  rw [Cert.Sage.shapeCast_row_apply]
  unfold Cert.ReferenceIdeal.ReadP.val_main_v51
  exact (Cert.Sage.broadcastInDim_row_apply _ _ j).symm

end Cert.KernelIdeal.Result

end
-- ==== Proof.RefStages.lean ====
/-
  The reference's run, stage by stage. Its @main is a straight line of 90 host operations; what a buffer holds after
  the line is the fold of the operations' results over the launch contents. The fold is read back in five stretches
  that end at the values the two layers are made of — the first mean aggregate (with the edge endpoints), the hidden
  layer, the second mean aggregate, the second layer's pre-activation, the result — each stretch against the stage
  functions of the reference read one operation at a time, the earlier stages entering only as named values (the stretches are the operation list cut at those values). Joined,
  the result buffer ends at the last stage function of the argument arrays, and no operation writes an argument.
-/
import proofs.«182133_j21311627723552_1_alg».proof.Proof.RefRead
import Idealize.ShloMosaic.Lib.Pipeline.Frame

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The five stretches of the operation list -/

/-- Up to the first mean aggregate (operations 0–29). -/
abbrev opsA : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S640000x1 ![0] bcast_S640000_S640000x1_0 : (⟨S640000, .i32⟩ : BufTy).Contents (Elt F) → (⟨S640000x1, .i32⟩ : BufTy).Contents (Elt F)),
    ternary main_v11 main_v12 main_v10 main_v13 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_1 (constant S_ .f32 0x3F800000#32),
    unary main_cst_1 main_v14 (broadcastInDim S640000 ![] bcast_S_S640000 : (⟨S_, .f32⟩ : BufTy).Contents (Elt F) → (⟨S640000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S640000x1 ![0] bcast_S640000_S640000x1_0 : (⟨S640000, .i32⟩ : BufTy).Contents (Elt F) → (⟨S640000x1, .i32⟩ : BufTy).Contents (Elt F)),
    ternary main_v15 main_v16 main_v14 main_v17 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_v17) (TRef.of (T := ⟨S100000, .f32⟩) main_v18) maximumf,
    unary main_v18 main_v19 (broadcastInDim S100000x1 ![0] bcast_S100000_S100000x1_0 : (⟨S100000, .f32⟩ : BufTy).Contents (Elt F) → (⟨S100000x1, .f32⟩ : BufTy).Contents (Elt F)),
    unary main_v19 main_v20 (broadcastInDim S100000x128 ![0, 1] bcast_S100000x1_S100000x128_0_1 : (⟨S100000x1, .f32⟩ : BufTy).Contents (Elt F) → (⟨S100000x128, .f32⟩ : BufTy).Contents (Elt F)),
    binary main_v13 main_v20 main_v21 (Host.divf : (⟨S100000x128, .f32⟩ : BufTy).Contents (Elt F) → (⟨S100000x128, .f32⟩ : BufTy).Contents (Elt F) → (⟨S100000x128, .f32⟩ : BufTy).Contents (Elt F)) ]
/-- The first layer (operations 30–40). -/
abbrev opsB : List (HloOp τ sig (Elt F)) :=
  [ unary main_arg2 main_v22 ((transpose S128x256 [1, 0] · transposes_S256x128_S128x256_1_0) : (⟨S256x128, .f32⟩ : BufTy).Contents (Elt F) → (⟨S128x256, .f32⟩ : BufTy).Contents (Elt F)),
    binary main_v21 main_v22 main_v23 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v24 (broadcastInDim S1x256 ![1] bcast_S256_S1x256_1 : (⟨S256, .f32⟩ : BufTy).Contents (Elt F) → (⟨S1x256, .f32⟩ : BufTy).Contents (Elt F)),
    unary main_v24 main_v25 (broadcastInDim S100000x256 ![0, 1] bcast_S1x256_S100000x256_0_1 : (⟨S1x256, .f32⟩ : BufTy).Contents (Elt F) → (⟨S100000x256, .f32⟩ : BufTy).Contents (Elt F)),
    binary main_v23 main_v25 main_v26 (addf : (⟨S100000x256, .f32⟩ : BufTy).Contents (Elt F) → (⟨S100000x256, .f32⟩ : BufTy).Contents (Elt F) → (⟨S100000x256, .f32⟩ : BufTy).Contents (Elt F)),
    unary main_arg4 main_v27 ((transpose S128x256 [1, 0] · transposes_S256x128_S128x256_1_0) : (⟨S256x128, .f32⟩ : BufTy).Contents (Elt F) → (⟨S128x256, .f32⟩ : BufTy).Contents (Elt F)),
    binary main_arg0 main_v27 main_v28 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v26 main_v28 main_v29 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v29) (TRef.of (T := ⟨S100000x256, .f32⟩) main_call1_v0) (TRef.of (T := ⟨S100000x256, .f32⟩) main_v30) maximumf ]
/-- Up to the second mean aggregate (operations 41–66). -/
abbrev opsC : List (HloOp τ sig (Elt F)) :=
  [ nullary main_c_4 (constantI S_ 32 0#32),
    unary main_c_4 main_v31 (broadcastInDim S640000 ![] bcast_S_S640000 : (⟨S_, .i32⟩ : BufTy).Contents (Elt F) → (⟨S640000, .i32⟩ : BufTy).Contents (Elt F)),
    binary main_v1 main_v31 main_v32 (cmpi .slt : (⟨S640000, .i32⟩ : BufTy).Contents (Elt F) → (⟨S640000, .i32⟩ : BufTy).Contents (Elt F) → (⟨S640000, .i1⟩ : BufTy).Contents (Elt F)),
    nullary main_c_5 (constantI S_ 32 100000#32),
    unary main_c_5 main_v33 (broadcastInDim S640000 ![] bcast_S_S640000 : (⟨S_, .i32⟩ : BufTy).Contents (Elt F) → (⟨S640000, .i32⟩ : BufTy).Contents (Elt F)),
    binary main_v1 main_v33 main_v34 (addi : (⟨S640000, .i32⟩ : BufTy).Contents (Elt F) → (⟨S640000, .i32⟩ : BufTy).Contents (Elt F) → (⟨S640000, .i32⟩ : BufTy).Contents (Elt F)),
    ternary main_v32 main_v34 main_v1 main_v35 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v35 main_v36 (broadcastInDim S640000x1 ![0] bcast_S640000_S640000x1_0 : (⟨S640000, .i32⟩ : BufTy).Contents (Elt F) → (⟨S640000x1, .i32⟩ : BufTy).Contents (Elt F)),
    binary main_v30 main_v36 main_v37 ((fun x i => Host.gather gather_S100000x256_S640000x1_S640000x256_1_0_n_n_0_1_1256 x i) : (⟨S100000x256, .f32⟩ : BufTy).Contents (Elt F) → (⟨S640000x1, .i32⟩ : BufTy).Contents (Elt F) → (⟨S640000x256, .f32⟩ : BufTy).Contents (Elt F)),
    nullary main_cst_6 (constant S_ .f32 0x00000000#32),
    unary main_cst_6 main_v38 (broadcastInDim S100000x256 ![] bcast_S_S100000x256 : (⟨S_, .f32⟩ : BufTy).Contents (Elt F) → (⟨S100000x256, .f32⟩ : BufTy).Contents (Elt F)),
    unary main_v3 main_v39 (broadcastInDim S640000x1 ![0] bcast_S640000_S640000x1_0 : (⟨S640000, .i32⟩ : BufTy).Contents (Elt F) → (⟨S640000x1, .i32⟩ : BufTy).Contents (Elt F)),
    ternary main_v38 main_v39 main_v37 main_v40 ((fun x i u => Host.scatterAdd scatter_S100000x256_S640000x1_S640000x256_1_0_0_1 x i u) : (⟨S100000x256, .f32⟩ : BufTy).Contents (Elt F) → (⟨S640000x1, .i32⟩ : BufTy).Contents (Elt F) → (⟨S640000x256, .f32⟩ : BufTy).Contents (Elt F) → (⟨S100000x256, .f32⟩ : BufTy).Contents (Elt F)),
    nullary main_cst_7 (constant S_ .f32 0x3F800000#32),
    unary main_cst_7 main_v41 (broadcastInDim S640000 ![] bcast_S_S640000 : (⟨S_, .f32⟩ : BufTy).Contents (Elt F) → (⟨S640000, .f32⟩ : BufTy).Contents (Elt F)),
    nullary main_cst_8 (constant S_ .f32 0x00000000#32),
    unary main_cst_8 main_v42 (broadcastInDim S100000 ![] bcast_S_S100000 : (⟨S_, .f32⟩ : BufTy).Contents (Elt F) → (⟨S100000, .f32⟩ : BufTy).Contents (Elt F)),
    unary main_v3 main_v43 (broadcastInDim S640000x1 ![0] bcast_S640000_S640000x1_0 : (⟨S640000, .i32⟩ : BufTy).Contents (Elt F) → (⟨S640000x1, .i32⟩ : BufTy).Contents (Elt F)),
    ternary main_v42 main_v43 main_v41 main_v44 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_9 (constant S_ .f32 0x3F800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_v44) (TRef.of (T := ⟨S100000, .f32⟩) main_v45) maximumf,
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x256 ![0, 1] bcast_S100000x1_S100000x256_0_1 : (⟨S100000x1, .f32⟩ : BufTy).Contents (Elt F) → (⟨S100000x256, .f32⟩ : BufTy).Contents (Elt F)),
    binary main_v40 main_v47 main_v48 (Host.divf : (⟨S100000x256, .f32⟩ : BufTy).Contents (Elt F) → (⟨S100000x256, .f32⟩ : BufTy).Contents (Elt F) → (⟨S100000x256, .f32⟩ : BufTy).Contents (Elt F)) ]
/-- The second layer's pre-activation (operations 67–74). -/
abbrev opsD : List (HloOp τ sig (Elt F)) :=
  [ unary main_arg5 main_v49 ((transpose S256x64 [1, 0] · transposes_S64x256_S256x64_1_0) : (⟨S64x256, .f32⟩ : BufTy).Contents (Elt F) → (⟨S256x64, .f32⟩ : BufTy).Contents (Elt F)),
    binary main_v48 main_v49 main_v50 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg6 main_v51 (broadcastInDim S1x64 ![1] bcast_S64_S1x64_1 : (⟨S64, .f32⟩ : BufTy).Contents (Elt F) → (⟨S1x64, .f32⟩ : BufTy).Contents (Elt F)),
    unary main_v51 main_v52 (broadcastInDim S100000x64 ![0, 1] bcast_S1x64_S100000x64_0_1 : (⟨S1x64, .f32⟩ : BufTy).Contents (Elt F) → (⟨S100000x64, .f32⟩ : BufTy).Contents (Elt F)),
    binary main_v50 main_v52 main_v53 (addf : (⟨S100000x64, .f32⟩ : BufTy).Contents (Elt F) → (⟨S100000x64, .f32⟩ : BufTy).Contents (Elt F) → (⟨S100000x64, .f32⟩ : BufTy).Contents (Elt F)),
    unary main_arg7 main_v54 ((transpose S256x64 [1, 0] · transposes_S64x256_S256x64_1_0) : (⟨S64x256, .f32⟩ : BufTy).Contents (Elt F) → (⟨S256x64, .f32⟩ : BufTy).Contents (Elt F)),
    binary main_v30 main_v54 main_v55 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    binary main_v53 main_v55 main_v56 (addf : (⟨S100000x64, .f32⟩ : BufTy).Contents (Elt F) → (⟨S100000x64, .f32⟩ : BufTy).Contents (Elt F) → (⟨S100000x64, .f32⟩ : BufTy).Contents (Elt F)) ]
/-- The row-wise log-softmax (operations 75–89). -/
abbrev opsE : List (HloOp τ sig (Elt F)) :=
  [ TRef.nullary (TRef.of (T := ⟨S_, .f32⟩) main_call3_cst) (constant S_ .f32 0xFF800000#32),
    TRef.binary (TRef.of (T := ⟨S100000x64, .f32⟩) main_v56) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v56) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v57) subf ]

/-- The line is its five stretches, one after the other. -/
theorem ops_split : (ops (F := F)) = opsA ++ (opsB ++ (opsC ++ (opsD ++ opsE))) := rfl

variable (V : Valuation τ sig (Elt F))

/-! ## Stretch A: the edge endpoints and the first mean aggregate -/

theorem A_v1 : after (opsA (F := F)) V (Proc.devRef .tc main_v1) = val_main_v1 (F := F) (V (Proc.devRef .tc main_arg1)) := by
  after_results_simp; try simp only [TRef.ofBuf, TRef.toBuf, cast_eq]
  all_goals rfl
theorem A_v3 : after (opsA (F := F)) V (Proc.devRef .tc main_v3) = val_main_v3 (F := F) (V (Proc.devRef .tc main_arg1)) := by
  after_results_simp; try simp only [TRef.ofBuf, TRef.toBuf, cast_eq]
  all_goals rfl
theorem A_v21 : after (opsA (F := F)) V (Proc.devRef .tc main_v21)
    = val_main_v21 (F := F) (V (Proc.devRef .tc main_arg0)) (V (Proc.devRef .tc main_arg1)) := by
  after_results_simp; try simp only [TRef.ofBuf, TRef.toBuf, cast_eq]
  all_goals rfl
theorem A_keep_main_arg0 : after (opsA (F := F)) V (Proc.devRef .tc main_arg0) = V (Proc.devRef .tc main_arg0) := by
  after_results_simp
theorem A_keep_main_arg1 : after (opsA (F := F)) V (Proc.devRef .tc main_arg1) = V (Proc.devRef .tc main_arg1) := by
  after_results_simp
theorem A_keep_main_arg2 : after (opsA (F := F)) V (Proc.devRef .tc main_arg2) = V (Proc.devRef .tc main_arg2) := by
  after_results_simp
theorem A_keep_main_arg3 : after (opsA (F := F)) V (Proc.devRef .tc main_arg3) = V (Proc.devRef .tc main_arg3) := by
  after_results_simp
theorem A_keep_main_arg4 : after (opsA (F := F)) V (Proc.devRef .tc main_arg4) = V (Proc.devRef .tc main_arg4) := by
  after_results_simp
theorem A_keep_main_arg5 : after (opsA (F := F)) V (Proc.devRef .tc main_arg5) = V (Proc.devRef .tc main_arg5) := by
  after_results_simp
theorem A_keep_main_arg6 : after (opsA (F := F)) V (Proc.devRef .tc main_arg6) = V (Proc.devRef .tc main_arg6) := by
  after_results_simp
theorem A_keep_main_arg7 : after (opsA (F := F)) V (Proc.devRef .tc main_arg7) = V (Proc.devRef .tc main_arg7) := by
  after_results_simp

/-! ## Stretch B: the hidden layer, from the mean aggregate as a named value -/

theorem B_v30 (x0 : (⟨S100000x128, .f32⟩ : BufTy).Contents (Elt F)) (x1 : (⟨S2x640000, .i32⟩ : BufTy).Contents (Elt F)) (x2 : (⟨S256x128, .f32⟩ : BufTy).Contents (Elt F)) (x3 : (⟨S256, .f32⟩ : BufTy).Contents (Elt F)) (x4 : (⟨S256x128, .f32⟩ : BufTy).Contents (Elt F))
    (h21 : V (Proc.devRef .tc main_v21) = val_main_v21 (F := F) x0 x1) (h0 : V (Proc.devRef .tc main_arg0) = x0)
    (h2 : V (Proc.devRef .tc main_arg2) = x2) (h3 : V (Proc.devRef .tc main_arg3) = x3) (h4 : V (Proc.devRef .tc main_arg4) = x4) :
    after (opsB (F := F)) V (Proc.devRef .tc main_v30) = val_main_v30 (F := F) x0 x1 x2 x3 x4 := by
  after_results_simp; try simp only [TRef.ofBuf, TRef.toBuf, cast_eq]
  rw [h21, h0, h2, h3, h4]
  simp only [val_main_v30, val_main_v29, val_main_v28, val_main_v27, val_main_v26, val_main_v25, val_main_v24, val_main_v23,
    val_main_v22, val_main_call1_v0, val_main_call1_cst]
  all_goals rfl
theorem B_keep_main_v1 : after (opsB (F := F)) V (Proc.devRef .tc main_v1) = V (Proc.devRef .tc main_v1) := by
  after_results_simp
theorem B_keep_main_v3 : after (opsB (F := F)) V (Proc.devRef .tc main_v3) = V (Proc.devRef .tc main_v3) := by
  after_results_simp
theorem B_keep_main_arg5 : after (opsB (F := F)) V (Proc.devRef .tc main_arg5) = V (Proc.devRef .tc main_arg5) := by
  after_results_simp
theorem B_keep_main_arg6 : after (opsB (F := F)) V (Proc.devRef .tc main_arg6) = V (Proc.devRef .tc main_arg6) := by
  after_results_simp
theorem B_keep_main_arg7 : after (opsB (F := F)) V (Proc.devRef .tc main_arg7) = V (Proc.devRef .tc main_arg7) := by
  after_results_simp

/-! ## Stretch C: the second mean aggregate, from the hidden layer and the edge endpoints as named values -/

theorem C_v48 (x0 : (⟨S100000x128, .f32⟩ : BufTy).Contents (Elt F)) (x1 : (⟨S2x640000, .i32⟩ : BufTy).Contents (Elt F)) (x2 : (⟨S256x128, .f32⟩ : BufTy).Contents (Elt F)) (x3 : (⟨S256, .f32⟩ : BufTy).Contents (Elt F)) (x4 : (⟨S256x128, .f32⟩ : BufTy).Contents (Elt F))
    (h30 : V (Proc.devRef .tc main_v30) = val_main_v30 (F := F) x0 x1 x2 x3 x4)
    (h1 : V (Proc.devRef .tc main_v1) = val_main_v1 (F := F) x1) (h3 : V (Proc.devRef .tc main_v3) = val_main_v3 (F := F) x1) :
    after (opsC (F := F)) V (Proc.devRef .tc main_v48) = val_main_v48 (F := F) x0 x1 x2 x3 x4 := by
  after_results_simp; try simp only [TRef.ofBuf, TRef.toBuf, cast_eq]
  rw [h30, h1, h3]
  simp only [val_main_v48, val_main_v47, val_main_v46, val_main_v45, val_main_call2_v1, val_main_call2_v0, val_main_cst_9,
    val_main_v44, val_main_v43, val_main_v42, val_main_cst_8, val_main_v41, val_main_cst_7, val_main_v40, val_main_v39,
    val_main_v38, val_main_cst_6, val_main_v37, val_main_v36, val_main_v35, val_main_v34, val_main_v33, val_main_c_5,
    val_main_v32, val_main_v31, val_main_c_4]
  all_goals rfl
theorem C_keep_main_v30 : after (opsC (F := F)) V (Proc.devRef .tc main_v30) = V (Proc.devRef .tc main_v30) := by
  after_results_simp
theorem C_keep_main_arg5 : after (opsC (F := F)) V (Proc.devRef .tc main_arg5) = V (Proc.devRef .tc main_arg5) := by
  after_results_simp
theorem C_keep_main_arg6 : after (opsC (F := F)) V (Proc.devRef .tc main_arg6) = V (Proc.devRef .tc main_arg6) := by
  after_results_simp
theorem C_keep_main_arg7 : after (opsC (F := F)) V (Proc.devRef .tc main_arg7) = V (Proc.devRef .tc main_arg7) := by
  after_results_simp

/-! ## Stretch D: the second layer before its log-softmax -/

theorem D_v56 (x0 : (⟨S100000x128, .f32⟩ : BufTy).Contents (Elt F)) (x1 : (⟨S2x640000, .i32⟩ : BufTy).Contents (Elt F)) (x2 : (⟨S256x128, .f32⟩ : BufTy).Contents (Elt F)) (x3 : (⟨S256, .f32⟩ : BufTy).Contents (Elt F)) (x4 : (⟨S256x128, .f32⟩ : BufTy).Contents (Elt F)) (x5 : (⟨S64x256, .f32⟩ : BufTy).Contents (Elt F)) (x6 : (⟨S64, .f32⟩ : BufTy).Contents (Elt F)) (x7 : (⟨S64x256, .f32⟩ : BufTy).Contents (Elt F))
    (h48 : V (Proc.devRef .tc main_v48) = val_main_v48 (F := F) x0 x1 x2 x3 x4)
    (h30 : V (Proc.devRef .tc main_v30) = val_main_v30 (F := F) x0 x1 x2 x3 x4)
    (h5 : V (Proc.devRef .tc main_arg5) = x5) (h6 : V (Proc.devRef .tc main_arg6) = x6) (h7 : V (Proc.devRef .tc main_arg7) = x7) :
    after (opsD (F := F)) V (Proc.devRef .tc main_v56) = val_main_v56 (F := F) x0 x1 x2 x3 x4 x5 x6 x7 := by
  after_results_simp; try simp only [TRef.ofBuf, TRef.toBuf, cast_eq]
  rw [h48, h30, h5, h6, h7]
  simp only [val_main_v56, val_main_v55, val_main_v54, val_main_v53, val_main_v52, val_main_v51, val_main_v50, val_main_v49]
  all_goals rfl

/-! ## Stretch E: the log-softmax -/

/-- Contents carried to a typed reference's buffer and back are unchanged. -/
theorem ofBuf_toBuf {T : BufTy} (x : TRef sig T) (v : T.Contents (Elt F)) : x.ofBuf (x.toBuf v) = v := by
  obtain ⟨r, rfl, h1, h2⟩ := x
  rfl

theorem E_v57 (x0 : (⟨S100000x128, .f32⟩ : BufTy).Contents (Elt F)) (x1 : (⟨S2x640000, .i32⟩ : BufTy).Contents (Elt F)) (x2 : (⟨S256x128, .f32⟩ : BufTy).Contents (Elt F)) (x3 : (⟨S256, .f32⟩ : BufTy).Contents (Elt F)) (x4 : (⟨S256x128, .f32⟩ : BufTy).Contents (Elt F)) (x5 : (⟨S64x256, .f32⟩ : BufTy).Contents (Elt F)) (x6 : (⟨S64, .f32⟩ : BufTy).Contents (Elt F)) (x7 : (⟨S64x256, .f32⟩ : BufTy).Contents (Elt F))
    (h56 : V (Proc.devRef .tc main_v56) = val_main_v56 (F := F) x0 x1 x2 x3 x4 x5 x6 x7) :
    after (opsE (F := F)) V (Proc.devRef .tc main_v57) = val_main_v57 (F := F) x0 x1 x2 x3 x4 x5 x6 x7 := by
  after_results_simp
  simp only [ofBuf_toBuf]
  rw [h56]
  simp only [val_main_v57, val_main_call3_v10, val_main_call3_v9, val_main_call3_v8, val_main_call3_v7, val_main_call3_cst_1,
    val_main_call3_v6, val_main_call3_v5, val_main_call3_v4, val_main_call3_v3, val_main_call3_v2, val_main_call3_v1,
    val_main_call3_cst_0, val_main_call3_v0, val_main_call3_cst]
  generalize val_main_v56 (F := F) x0 x1 x2 x3 x4 x5 x6 x7 = Z
  rfl

/-! ## The whole line -/

/-- After the whole line the result buffer holds the last stage function of the argument buffers' contents. -/
theorem result_eq : after (ops (F := F)) V (Proc.devRef .tc main_v57)
    = val_main_v57 (F := F) (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7)) := by
  rw [ops_split, StableHlo.after_append, StableHlo.after_append, StableHlo.after_append, StableHlo.after_append]
  have hB30 := B_v30 (after (opsA (F := F)) V) _ _ _ _ _ (A_v21 V) (A_keep_main_arg0 V) (A_keep_main_arg2 V) (A_keep_main_arg3 V)
    (A_keep_main_arg4 V)
  have hB1 := (B_keep_main_v1 (after (opsA (F := F)) V)).trans (A_v1 V)
  have hB3 := (B_keep_main_v3 (after (opsA (F := F)) V)).trans (A_v3 V)
  have hB5 := (B_keep_main_arg5 (after (opsA (F := F)) V)).trans (A_keep_main_arg5 V)
  have hB6 := (B_keep_main_arg6 (after (opsA (F := F)) V)).trans (A_keep_main_arg6 V)
  have hB7 := (B_keep_main_arg7 (after (opsA (F := F)) V)).trans (A_keep_main_arg7 V)
  have hC48 := C_v48 (after (opsB (F := F)) (after (opsA (F := F)) V)) _ _ _ _ _ hB30 hB1 hB3
  have hC30 := (C_keep_main_v30 (after (opsB (F := F)) (after (opsA (F := F)) V))).trans hB30
  have hC5 := (C_keep_main_arg5 (after (opsB (F := F)) (after (opsA (F := F)) V))).trans hB5
  have hC6 := (C_keep_main_arg6 (after (opsB (F := F)) (after (opsA (F := F)) V))).trans hB6
  have hC7 := (C_keep_main_arg7 (after (opsB (F := F)) (after (opsA (F := F)) V))).trans hB7
  have hD56 := D_v56 (after (opsC (F := F)) (after (opsB (F := F)) (after (opsA (F := F)) V))) _ _ _ _ _ _ _ _ hC48 hC30 hC5 hC6 hC7
  exact E_v57 _ _ _ _ _ _ _ _ _ hD56

end Cert.ReferenceIdeal.Stages

end
-- ==== Proof.RefRunS.lean ====
/-
  The reference's run. Its @main is a straight line of host operations on a signature that scopes nothing, so every
  weakly fair execution terminates with each buffer at the fold of the operations' results over the launch contents;
  the result buffer's fold is the last stage function of the argument arrays (read back stage by stage), and an
  argument buffer, which no operation writes, keeps its launch contents.
-/
import proofs.«182133_j21311627723552_1_alg».proof.Proof.RefStages

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 36000000 in
/-- The reference's run: every weakly fair execution terminates, nothing faulting; the result buffer ends at the
    last stage function of the launch contents of the argument arrays, and the argument arrays end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
        = val_main_v57 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v57).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Stages

end
-- ==== Proof.lean ====
/-
  The certificate of a two-layer GraphSAGE forward pass (mean aggregation over the edges, relu after the first layer,
  log-softmax after the second) whose two dense layers are Pallas kernels tiled over the nodes, against the plain jnp
  reference.

  Both programs compute, per layer, the mean over each node's incoming edges of the source rows (a gather, a scatter-add,
  a division by the clipped in-degree: the SAME host operations on both sides, carried as one function and never opened)
  and then mean · W_aggᵀ + x · W_rootᵀ + b. The kernel adds the two products first and the bias last, the reference the
  bias in the middle: equal on the extended reals by commutativity and associativity of +, with no finiteness needed. The
  kernel rounds its operands to bf16, which is the identity at the ideal instance; its matrix products start from a zero
  accumulator and are the plain sums the reference's dot_general is; its row maximum and row sum are the folds the
  reference's reduces are (the reference takes one more maximum against −∞, which changes nothing). Each kernel stores
  25 blocks of 4000 rows that tile the 100000 nodes, and a layer is computed row by row, so each region's output array is
  the layer's whole-array function of the arrays the region was entered with.

  The frames of the two kernel programs are the generated ones; the reference's run is read back stage by stage; the
  idealization rewrote nothing, so `preserves` is trivial.
-/
import proofs.«182133_j21311627723552_1_alg».proof.Defs
import proofs.«182133_j21311627723552_1_alg».proof.Proof.Gen.Kernel
import proofs.«182133_j21311627723552_1_alg».proof.Proof.Gen.Kernel.Frame
import proofs.«182133_j21311627723552_1_alg».proof.Proof.Gen.KernelIdeal
import proofs.«182133_j21311627723552_1_alg».proof.Proof.Gen.KernelIdeal.Frame
import proofs.«182133_j21311627723552_1_alg».proof.Proof.Gen.ReferenceIdeal
import proofs.«182133_j21311627723552_1_alg».proof.Proof.Gen.Pre_finite_inputs
import proofs.«182133_j21311627723552_1_alg».proof.Proof.KRun
import proofs.«182133_j21311627723552_1_alg».proof.Proof.KValue
import proofs.«182133_j21311627723552_1_alg».proof.Proof.RefRunS
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- Both programs end with the result buffer at the reference's last stage function of the argument arrays: the
    kernel program by its run (the result buffer at the last boundary's contents) and the value of those contents, the
    reference by its run; the arguments agree by hypothesis. -/
theorem algebraic : Cert.algebraic_KernelIdeal_ReferenceIdeal := by
  intro m ρ m' ρ' _ hagree
  refine ⟨fun c => Cert.KernelIdeal.Gen.W8 m ρ c (Proc.devRef .tc Cert.KernelIdeal.main_v55),
    Cert.KernelIdeal.GenP.run_named (F := Ideal) m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.KernelIdeal.Result.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
